-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512 : Shape := ⟨3, ![64, 1, 512]⟩
abbrev S64x4096x512 : Shape := ⟨3, ![64, 4096, 512]⟩
abbrev S512x512 : Shape := ⟨2, ![512, 512]⟩
abbrev S_ : Shape := ⟨0, ![]⟩

class Facts : Prop where
  bcast_S_S64x1x512 : S_.BroadcastsInDim S64x1x512 (![] : Fin 0 → Fin S64x1x512.rank)
  reducesTo_S64x1x512_S_d0_1_2 : S64x1x512.ReducesTo [0, 1, 2] S_
  h_S_ : 0 < S_.numel
  bcast_S_S64x4096x512 : S_.BroadcastsInDim S64x4096x512 (![] : Fin 0 → Fin S64x4096x512.rank)
  reducesTo_S64x4096x512_S_d0_1_2 : S64x4096x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S64x1x512 .f32) (main_arg1 : FVec F S64x4096x512 .f32) (main_arg2 : FVec F S512x512 .f32) : IVec S_ 1 :=
  let main_v0 : FVec F S64x1x512 .f32 := Host.absf main_arg0
  let main_cst : FVec F S_ .f32 := constant S_ .f32 0x7F800000#32
  let main_v1 : FVec F S64x1x512 .f32 := broadcastInDim S64x1x512 ![] bcast_S_S64x1x512 main_cst
  let main_v2 : IVec S64x1x512 1 := cmpf .olt main_v0 main_v1
  let main_c : IVec S_ 1 := constantI S_ 1 1#1
  let main_v3 : IVec S_ 1 := (fun x v => Host.reduce IntOp.andi x v reducesTo_S64x1x512_S_d0_1_2 h_S_) main_v2 main_c
  let main_v4 : FVec F S64x4096x512 .f32 := Host.absf main_arg1
  let main_cst_0 : FVec F S_ .f32 := constant S_ .f32 0x7F800000#32
  let main_v5 : FVec F S64x4096x512 .f32 := broadcastInDim S64x4096x512 ![] bcast_S_S64x4096x512 main_cst_0
  let main_v6 : IVec S64x4096x512 1 := cmpf .olt main_v4 main_v5
  let main_c_1 : IVec S_ 1 := constantI S_ 1 1#1
  let main_v7 : IVec S_ 1 := (fun x v => Host.reduce IntOp.andi x v reducesTo_S64x4096x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S64x1x512 : Shape := ⟨3, ![64, 1, 512]⟩
abbrev S64x4096x512 : Shape := ⟨3, ![64, 4096, 512]⟩
abbrev S512x512 : Shape := ⟨2, ![512, 512]⟩
abbrev S64x1x4096 : Shape := ⟨3, ![64, 1, 4096]⟩
abbrev S2x1x512 : Shape := ⟨3, ![2, 1, 512]⟩
abbrev S2x4096x512 : Shape := ⟨3, ![2, 4096, 512]⟩
abbrev S2x1x4096 : Shape := ⟨3, ![2, 1, 4096]⟩
abbrev S2x512 : Shape := ⟨2, ![2, 512]⟩
abbrev S2x512x512 : Shape := ⟨3, ![2, 512, 512]⟩
abbrev S2x4096 : Shape := ⟨2, ![2, 4096]⟩
abbrev S2 : Shape := ⟨1, ![2]⟩
abbrev S2x1 : Shape := ⟨2, ![2, 1]⟩
abbrev S64x512 : Shape := ⟨2, ![64, 512]⟩

abbrev nBuf : Space → Nat
  | .hbm => 6
  | .vmem => 9
  | .smem => 0
  | _ => 0

abbrev bufTy : (tb : Table) → Fin (tcTables nBuf tb) → BufTy
  | .hbm, ⟨0, _⟩ => ⟨S64x1x512, .f32⟩
  | .hbm, ⟨1, _⟩ => ⟨S64x4096x512, .f32⟩
  | .hbm, ⟨2, _⟩ => ⟨S512x512, .f32⟩
  | .hbm, ⟨3, _⟩ => ⟨S64x1x4096, .f32⟩
  | .hbm, ⟨4, _⟩ => ⟨S64x1x512, .f32⟩
  | .hbm, ⟨5, _⟩ => ⟨S64x512, .f32⟩
  | .local _ .vmem, ⟨0, _⟩ => ⟨S2x1x512, .f32⟩
  | .local _ .vmem, ⟨1, _⟩ => ⟨S2x1x512, .f32⟩
  | .local _ .vmem, ⟨2, _⟩ => ⟨S2x4096x512, .f32⟩
  | .local _ .vmem, ⟨3, _⟩ => ⟨S2x4096x512, .f32⟩
  | .local _ .vmem, ⟨4, _⟩ => ⟨S512x512, .f32⟩
  | .local _ .vmem, ⟨5, _⟩ => ⟨S2x1x4096, .f32⟩
  | .local _ .vmem, ⟨6, _⟩ => ⟨S2x1x4096, .f32⟩
  | .local _ .vmem, ⟨7, _⟩ => ⟨S2x1x512, .f32⟩
  | .local _ .vmem, ⟨8, _⟩ => ⟨S2x1x512, .f32⟩
  | _, _ => ⟨S64x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2x1x512_S2x1x512_0_0_0 : ∀ a, (![0, 0, 0] : Fin 3 → Nat) a + S2x1x512.size a ≤ S2x1x512.size a
  h_S2x1x512 : 0 < S2x1x512.numel
  shapeCasts_S2x1x512_S2x512 : S2x1x512.ShapeCasts S2x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S2x4096x512_S2x512x512_0_0_0 : ∀ a, (![0, 0, 0] : Fin 3 → Nat) a + S2x512x512.size a ≤ S2x4096x512.size a
  h_S2x512x512 : 0 < S2x512x512.numel
  shapeCasts_S2x512_S2x1x512 : S2x512.ShapeCasts S2x1x512
  inb_S2x4096x512_S2x512x512_0_512_0 : ∀ a, (![0, 512, 0] : Fin 3 → Nat) a + S2x512x512.size a ≤ S2x4096x512.size a
  inb_S2x4096x512_S2x512x512_0_1024_0 : ∀ a, (![0, 1024, 0] : Fin 3 → Nat) a + S2x512x512.size a ≤ S2x4096x512.size a
  inb_S2x4096x512_S2x512x512_0_1536_0 : ∀ a, (![0, 1536, 0] : Fin 3 → Nat) a + S2x512x512.size a ≤ S2x4096x512.size a
  inb_S2x4096x512_S2x512x512_0_2048_0 : ∀ a, (![0, 2048, 0] : Fin 3 → Nat) a + S2x512x512.size a ≤ S2x4096x512.size a
  inb_S2x4096x512_S2x512x512_0_2560_0 : ∀ a, (![0, 2560, 0] : Fin 3 → Nat) a + S2x512x512.size a ≤ S2x4096x512.size a
  inb_S2x4096x512_S2x512x512_0_3072_0 : ∀ a, (![0, 3072, 0] : Fin 3 → Nat) a + S2x512x512.size a ≤ S2x4096x512.size a
  inb_S2x4096x512_S2x512x512_0_3584_0 : ∀ a, (![0, 3584, 0] : Fin 3 → Nat) a + S2x512x512.size a ≤ S2x4096x512.size a
  concatenates_S2x512_S2x512_S2x512_S2x512_S2x512_S2x512_S2x512_S2x512_S2x4096_d1 : Shape.Concatenates [S2x512, S2x512, S2x512, S2x512, S2x512, S2x512, S2x512, S2x512] S2x4096 1
  reduces_S2x4096_S2 : S2x4096.Reduces [1] S2
  shapeCasts_S2_S2x1 : S2.ShapeCasts S2x1
  broadcasts_S2x1_S2x512 : S2x1.Broadcasts S2x512
  reduces_S2x512_S2 : S2x512.Reduces [1] S2
  broadcasts_S2x1_S2x4096 : S2x1.Broadcasts S2x4096
  inb_S2x1x4096_S2x1x4096_0_0_0 : ∀ a, (![0, 0, 0] : Fin 3 → Nat) a + S2x1x4096.size a ≤ S2x1x4096.size a
  h_S2x1x4096 : 0 < S2x1x4096.numel
  shapeCasts_S2x1x4096_S2x4096 : S2x1x4096.ShapeCasts S2x4096
  shapeCasts_S2x4096_S2x1x4096 : S2x4096.ShapeCasts S2x1x4096
  shapeCasts_S64x1x512_S64x512 : S64x1x512.ShapeCasts S64x512
  dot_S2x512_S512x512_S2x512_1_1_0_0_n_n_wf : DotDims.WF S2x512 S512x512 S2x512 [1] [1] [0] [0] [] []
  dot_S2x1x512_S2x512x512_S2x1x512_2_2_1_1_0_0_wf : DotDims.WF S2x1x512 S2x512x512 S2x1x512 [2] [2] [1] [1] [0] [0]
  dot_S2x1x512_S2x512x512_S2x1x512_2_1_1_2_0_0_wf : DotDims.WF S2x1x512 S2x512x512 S2x1x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512.size a ≤ S64x1x512.size a
  hwx0_0 : ∀ i : grid0.Coords, EltTy.bits .f32 = 32 ∨ (Rect.block (s := S64x1x512) S2x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096x512.size a ≤ S64x4096x512.size a
  hwx0_1 : ∀ i : grid0.Coords, EltTy.bits .f32 = 32 ∨ (Rect.block (s := S64x4096x512) S2x4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x4096.size a ≤ S64x1x4096.size a
  hwx0_3 : ∀ i : grid0.Coords, EltTy.bits .f32 = 32 ∨ (Rect.block (s := S64x1x4096) S2x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x512.size a ≤ S64x1x512.size a
  hwx0_4 : ∀ i : grid0.Coords, EltTy.bits .f32 = 32 ∨ (Rect.block (s := S64x1x512) S2x1x512.size (cc0_transform_4 i) (hinb0_4 i)).WholeWords (EltTy.packing .f32)

variable [Facts₀]

def dot_S2x512_S512x512_S2x512_1_1_0_0_n_n : DotDims S2x512 S512x512 S2x512 where
  lhsContracting := [1]
  rhsContracting := [1]
  lhsNonContracting := [0]
  rhsNonContracting := [0]
  lhsBatch := []
  rhsBatch := []
  wf := dot_S2x512_S512x512_S2x512_1_1_0_0_n_n_wf
def dot_S2x1x512_S2x512x512_S2x1x512_2_2_1_1_0_0 : DotDims S2x1x512 S2x512x512 S2x1x512 where
  lhsContracting := [2]
  rhsContracting := [2]
  lhsNonContracting := [1]
  rhsNonContracting := [1]
  lhsBatch := [0]
  rhsBatch := [0]
  wf := dot_S2x1x512_S2x512x512_S2x1x512_2_2_1_1_0_0_wf
def dot_S2x1x512_S2x512x512_S2x1x512_2_1_1_2_0_0 : DotDims S2x1x512 S2x512x512 S2x1x512 where
  lhsContracting := [2]
  rhsContracting := [1]
  lhsNonContracting := [1]
  rhsNonContracting := [2]
  lhsBatch := [0]
  rhsBatch := [0]
  wf := dot_S2x1x512_S2x512x512_S2x1x512_2_1_1_2_0_0_wf

abbrev win0_0 : Pipeline.Window sig grid0 :=
  Pipeline.Window.ofSpec (Memref.whole main_arg0) S2x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2x1x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1x512 : Shape := ⟨3, ![64, 1, 512]⟩
abbrev S64x4096x512 : Shape := ⟨3, ![64, 4096, 512]⟩
abbrev S512x512 : Shape := ⟨2, ![512, 512]⟩
abbrev S64x1x4096 : Shape := ⟨3, ![64, 1, 4096]⟩
abbrev S_ : Shape := ⟨0, ![]⟩
abbrev S64x1 : Shape := ⟨2, ![64, 1]⟩
abbrev S64x1x1 : Shape := ⟨3, ![64, 1, 1]⟩
abbrev S64x512 : Shape := ⟨2, ![64, 512]⟩

abbrev nBuf : Space → Nat
  | .hbm => 21
  | .vmem => 0
  | .smem => 0
  | _ => 0

abbrev bufTy : (tb : Table) → Fin (tcTables nBuf tb) → BufTy
  | .hbm, ⟨0, _⟩ => ⟨S64x1x512, .f32⟩
  | .hbm, ⟨1, _⟩ => ⟨S64x4096x512, .f32⟩
  | .hbm, ⟨2, _⟩ => ⟨S512x512, .f32⟩
  | .hbm, ⟨3, _⟩ => ⟨S64x1x512, .f32⟩
  | .hbm, ⟨4, _⟩ => ⟨S64x1x4096, .f32⟩
  | .hbm, ⟨5, _⟩ => ⟨S_, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S64x1x1, .f32⟩
  | .hbm, ⟨11, _⟩ => ⟨S64x1x4096, .f32⟩
  | .hbm, ⟨12, _⟩ => ⟨S64x1x4096, .f32⟩
  | .hbm, ⟨13, _⟩ => ⟨S64x1x4096, .f32⟩
  | .hbm, ⟨14, _⟩ => ⟨S_, .f32⟩
  | .hbm, ⟨15, _⟩ => ⟨S64x1, .f32⟩
  | .hbm, ⟨16, _⟩ => ⟨S64x1x1, .f32⟩
  | .hbm, ⟨17, _⟩ => ⟨S64x1x4096, .f32⟩
  | .hbm, ⟨18, _⟩ => ⟨S64x1x4096, .f32⟩
  | .hbm, ⟨19, _⟩ => ⟨S64x1x512, .f32⟩
  | .hbm, ⟨20, _⟩ => ⟨S64x512, .f32⟩
  | _, _ => ⟨S64x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S64x1x4096_S64x1_d2 : S64x1x4096.ReducesTo [2] S64x1
  h_S_ : 0 < S_.numel
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  bcast_S64x1x1_S64x1x4096_0_1_2 : S64x1x1.BroadcastsInDim S64x1x4096 (![0, 1, 2] : Fin 3 → Fin S64x1x4096.rank)
  shapeCasts_S64x1x512_S64x512 : S64x1x512.ShapeCasts S64x512
  dot_S64x1x512_S512x512_S64x1x512_2_1_01_0_n_n_wf : DotDims.WF S64x1x512 S512x512 S64x1x512 [2] [1] [0, 1] [0] [] []
  dot_S64x1x512_S64x4096x512_S64x1x4096_2_2_1_1_0_0_wf : DotDims.WF S64x1x512 S64x4096x512 S64x1x4096 [2] [2] [1] [1] [0] [0]
  dot_S64x1x4096_S64x4096x512_S64x1x512_2_1_1_2_0_0_wf : DotDims.WF S64x1x4096 S64x4096x512 S64x1x512 [2] [1] [1] [2] [0] [0]

variable [Facts₀]

def dot_S64x1x512_S512x512_S64x1x512_2_1_01_0_n_n : DotDims S64x1x512 S512x512 S64x1x512 where
  lhsContracting := [2]
  rhsContracting := [1]
  lhsNonContracting := [0, 1]
  rhsNonContracting := [0]
  lhsBatch := []
  rhsBatch := []
  wf := dot_S64x1x512_S512x512_S64x1x512_2_1_01_0_n_n_wf
def dot_S64x1x512_S64x4096x512_S64x1x4096_2_2_1_1_0_0 : DotDims S64x1x512 S64x4096x512 S64x1x4096 where
  lhsContracting := [2]
  rhsContracting := [2]
  lhsNonContracting := [1]
  rhsNonContracting := [1]
  lhsBatch := [0]
  rhsBatch := [0]
  wf := dot_S64x1x512_S64x4096x512_S64x1x4096_2_2_1_1_0_0_wf
def dot_S64x1x4096_S64x4096x512_S64x1x512_2_1_1_2_0_0 : DotDims S64x1x4096 S64x4096x512 S64x1x512 where
  lhsContracting := [2]
  rhsContracting := [1]
  lhsNonContracting := [1]
  rhsNonContracting := [2]
  lhsBatch := [0]
  rhsBatch := [0]
  wf := dot_S64x1x4096_S64x4096x512_S64x1x512_2_1_1_2_0_0_wf

class Facts : Prop extends Facts₀ where

variable [Facts]
-- ==== Proof.Row.lean ====
/-
  One batch row of the attention computation, as plain functions on the extended reals.

  A row is a decoder vector `d : Fin 512 → EReal`, an encoder slab `enc : Fin 4096 → Fin 512 → EReal` and the
  weight matrix `W : Fin 512 → Fin 512 → EReal` (indexed output feature first).  Both programs compute
    sub e   = ∑ k, d k · W e k
    logit s = ∑ e, sub e · enc s e
    mx      = max over s of logit s            (the fold of `max` from ⊥)
    p s     = exp (logit s − mx).
  The kernel then walks the 4096 positions in eight chunks of 512: its normaliser is the left-nested sum of the
  eight chunk sums, it multiplies by the reciprocal `1 / l`, and its weighted sum is accumulated chunk by chunk
  BEFORE the multiplication.  The reference divides each `p s` by the plain sum and then contracts with the slab.
  On finite inputs every quantity above is a real number and `l ≥ 1`, so the two agree: that is `attn_eq` and
  `sum_eq`, by distributivity in ℝ.
-/
import Idealize.ShloMosaic.PureOps.Ideal
import Idealize.ShloMosaic.Lib.ValueIdx
import Mathlib.Data.Finset.Fold

noncomputable section

open scoped BigOperators

namespace Cert.Row

open Idealize.ShloMosaic Idealize.ShloMosaic.ValueIdx

/-- Position `j` of chunk `c` among the 4096 encoder positions. -/
abbrev pos (c : Fin 8) (j : Fin 512) : Fin 4096 := ⟨512 * c.val + j.val, by have := c.isLt; have := j.isLt; omega⟩

/-- Row `B` of the decoder array. -/
abbrev dRow (D : (⟨3, ![64, 1, 512]⟩ : Shape).Idx → EReal) (B : Fin 64) : Fin 512 → EReal := fun k => D (ix3 B 0 k)
/-- Slab `B` of the encoder array. -/
abbrev eRow (E : (⟨3, ![64, 4096, 512]⟩ : Shape).Idx → EReal) (B : Fin 64) : Fin 4096 → Fin 512 → EReal := fun s e => E (ix3 B s e)
/-- The weight matrix by coordinates. -/
abbrev wMat (Wt : (⟨2, ![512, 512]⟩ : Shape).Idx → EReal) : Fin 512 → Fin 512 → EReal := fun e k => Wt (ix2 e k)

section
variable (d : Fin 512 → EReal) (enc : Fin 4096 → Fin 512 → EReal) (W : Fin 512 → Fin 512 → EReal)

/-- The projected decoder vector. -/
def sub (e : Fin 512) : EReal := ∑ k : Fin 512, d k * W e k
/-- The attention score of position `s`. -/
def logit (s : Fin 4096) : EReal := ∑ e : Fin 512, sub d W e * enc s e
/-- The largest score. -/
def mx : EReal := (Finset.univ : Finset (Fin 4096)).fold max ⊥ (logit d enc W)
/-- The unnormalised weight of position `s`. -/
def p (s : Fin 4096) : EReal := Ideal.exp (logit d enc W s - mx d enc W)

/-- The sum of the weights of chunk `c`. -/
def csum (c : Fin 8) : EReal := ∑ j : Fin 512, p d enc W (pos c j)
/-- The kernel's normaliser: the eight chunk sums added left to right onto zero. -/
def lK : EReal :=
  0 + csum d enc W 0 + csum d enc W 1 + csum d enc W 2 + csum d enc W 3 + csum d enc W 4 + csum d enc W 5
    + csum d enc W 6 + csum d enc W 7
/-- The kernel's attention weight: the unnormalised weight times the reciprocal of the normaliser. -/
def attnK (s : Fin 4096) : EReal := p d enc W s * Ideal.div 1 (lK d enc W)
/-- Chunk `c`'s share of the weighted sum at feature `e`. -/
def cw (c : Fin 8) (e : Fin 512) : EReal := ∑ j : Fin 512, p d enc W (pos c j) * enc (pos c j) e
/-- The kernel's weighted sum: the eight shares added left to right onto zero, then scaled. -/
def sumK (e : Fin 512) : EReal :=
  (0 + cw d enc W 0 e + cw d enc W 1 e + cw d enc W 2 e + cw d enc W 3 e + cw d enc W 4 e + cw d enc W 5 e
    + cw d enc W 6 e + cw d enc W 7 e) * Ideal.div 1 (lK d enc W)

/-- The reference's normaliser: zero plus the sum over all positions. -/
def lR : EReal := 0 + ∑ s : Fin 4096, p d enc W s
/-- The reference's attention weight: a quotient. -/
def attnR (s : Fin 4096) : EReal := Ideal.div (p d enc W s) (lR d enc W)
/-- The reference's weighted sum. -/
def sumR (e : Fin 512) : EReal := ∑ s : Fin 4096, attnR d enc W s * enc s e

end

/-! ### Finite sums and maxima of reals inside the extended reals -/

/-- The inclusion of the reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The running maximum of finitely many reals, started from ⊥, is ⊥ or a real. -/
theorem fold_max_coe {ι : Type*} (t : Finset ι) (f : ι → ℝ) :
    t.fold max (⊥ : EReal) (fun i => (f i : EReal)) = ⊥ ∨
      ∃ r : ℝ, t.fold max (⊥ : EReal) (fun i => (f i : EReal)) = (r : EReal) := by
  classical
  induction t using Finset.induction_on with
  | empty => exact Or.inl (Finset.fold_empty)
  | insert a t ha ih =>
    right
    rw [Finset.fold_insert ha]
    rcases ih with h | ⟨r, h⟩
    · exact ⟨f a, by rw [h, max_eq_left bot_le]⟩
    · rw [h]
      rcases max_choice ((f a : ℝ) : EReal) (r : EReal) with h' | h'
      · exact ⟨f a, h'⟩
      · exact ⟨r, h'⟩

/-- The 4096 positions are the eight chunks of 512, in any commutative monoid. -/
theorem sum_chunks {M : Type*} [AddCommMonoid M] (f : Fin 4096 → M) :
    ∑ s : Fin 4096, f s = ∑ c : Fin 8, ∑ j : Fin 512, f (pos c j) := by
  calc ∑ s : Fin 4096, f s
      = ∑ x : Fin 8 × Fin 512, f (finProdFinEquiv (m := 8) (n := 512) x) :=
        (Equiv.sum_comp (finProdFinEquiv (m := 8) (n := 512)) f).symm
    _ = ∑ x : Fin 8 × Fin 512, f (pos x.1 x.2) := by
        refine Finset.sum_congr rfl (fun x _ => congrArg f ?_)
        apply Fin.ext
        simp only [finProdFinEquiv_apply_val]
        omega
    _ = ∑ c : Fin 8, ∑ j : Fin 512, f (pos c j) := Fintype.sum_prod_type _

/-! ### The row on finite inputs -/

/-- On finite inputs every unnormalised weight is a positive real: the scores are finite sums of products of
    reals, their maximum over the nonempty set of positions is one of them, and the exponential of a real
    difference is a positive real. -/
theorem p_real (d : Fin 512 → EReal) (enc : Fin 4096 → Fin 512 → EReal) (W : Fin 512 → Fin 512 → EReal)
    (hd : ∀ k, ∃ r : ℝ, d k = (r : EReal)) (henc : ∀ s e, ∃ r : ℝ, enc s e = (r : EReal))
    (hW : ∀ e k, ∃ r : ℝ, W e k = (r : EReal)) :
    ∃ pr : Fin 4096 → ℝ, (∀ s, 0 < pr s) ∧ ∀ s, p d enc W s = (pr s : EReal) := by
  choose dr hdr using hd
  choose er her using henc
  choose wr hwr using hW
  have hsub : ∀ e, sub d W e = ((∑ k, dr k * wr e k : ℝ) : EReal) := by
    intro e
    rw [sub, coe_sum]
    exact Finset.sum_congr rfl (fun k _ => by rw [hdr, hwr, EReal.coe_mul])
  have hlogit : ∀ s, logit d enc W s = ((∑ e, (∑ k, dr k * wr e k) * er s e : ℝ) : EReal) := by
    intro s
    rw [logit, coe_sum]
    exact Finset.sum_congr rfl (fun e _ => by rw [hsub, her, EReal.coe_mul])
  obtain ⟨m, hm⟩ : ∃ m : ℝ, mx d enc W = (m : EReal) := by
    have hfun : logit d enc W = fun s => ((∑ e, (∑ k, dr k * wr e k) * er s e : ℝ) : EReal) := funext hlogit
    rw [mx, hfun]
    rcases fold_max_coe (Finset.univ : Finset (Fin 4096)) (fun s => ∑ e, (∑ k, dr k * wr e k) * er s e) with h | h
    · exfalso
      have h0 : ((∑ e, (∑ k, dr k * wr e k) * er 0 e : ℝ) : EReal) ≤
          (Finset.univ : Finset (Fin 4096)).fold max ⊥
            (fun s => ((∑ e, (∑ k, dr k * wr e k) * er s e : ℝ) : EReal)) :=
        (Finset.le_fold_max _).mpr (Or.inr ⟨0, Finset.mem_univ _, le_rfl⟩)
      rw [h] at h0
      exact EReal.coe_ne_bot _ (le_bot_iff.mp h0)
    · exact h
  refine ⟨fun s => Real.exp ((∑ e, (∑ k, dr k * wr e k) * er s e) - m), fun s => Real.exp_pos _, fun s => ?_⟩
  rw [p, hlogit, hm, ← EReal.coe_sub, Ideal.exp_coe]

/-- The kernel's chunked normaliser is the reference's plain one. -/
theorem lK_eq_lR (d : Fin 512 → EReal) (enc : Fin 4096 → Fin 512 → EReal) (W : Fin 512 → Fin 512 → EReal) :
    lK d enc W = lR d enc W := by
  rw [lK, lR, sum_chunks (p d enc W), Fin.sum_univ_eight]
  simp only [csum, zero_add]

/-- With positive real weights the normaliser is their (positive, hence nonzero) real sum. -/
theorem lR_real (d : Fin 512 → EReal) (enc : Fin 4096 → Fin 512 → EReal) (W : Fin 512 → Fin 512 → EReal)
    (pr : Fin 4096 → ℝ) (hp : ∀ s, p d enc W s = (pr s : EReal)) :
    lR d enc W = ((∑ s, pr s : ℝ) : EReal) := by
  rw [lR, zero_add, coe_sum]
  exact Finset.sum_congr rfl (fun s _ => hp s)

/-- On finite inputs the kernel's attention weight is the reference's. -/
theorem attn_eq (d : Fin 512 → EReal) (enc : Fin 4096 → Fin 512 → EReal) (W : Fin 512 → Fin 512 → EReal)
    (hd : ∀ k, ∃ r : ℝ, d k = (r : EReal)) (henc : ∀ s e, ∃ r : ℝ, enc s e = (r : EReal))
    (hW : ∀ e k, ∃ r : ℝ, W e k = (r : EReal)) (s : Fin 4096) :
    attnK d enc W s = attnR d enc W s := by
  obtain ⟨pr, hpos, hp⟩ := p_real d enc W hd henc hW
  have hL := lR_real d enc W pr hp
  have hL0 : (∑ s, pr s : ℝ) ≠ 0 := (Finset.sum_pos (fun s _ => hpos s) Finset.univ_nonempty).ne'
  -- both sides are the weight times the reciprocal of the same nonzero real
  rw [attnK, attnR, lK_eq_lR, hL, Ideal.div_coe hL0, Ideal.div_coe hL0, one_mul]

/-- On finite inputs the kernel's weighted sum is the reference's. -/
theorem sum_eq (d : Fin 512 → EReal) (enc : Fin 4096 → Fin 512 → EReal) (W : Fin 512 → Fin 512 → EReal)
    (hd : ∀ k, ∃ r : ℝ, d k = (r : EReal)) (henc : ∀ s e, ∃ r : ℝ, enc s e = (r : EReal))
    (hW : ∀ e k, ∃ r : ℝ, W e k = (r : EReal)) (e : Fin 512) :
    sumK d enc W e = sumR d enc W e := by
  obtain ⟨pr, hpos, hp⟩ := p_real d enc W hd henc hW
  choose er her using henc
  have hL := lR_real d enc W pr hp
  have hL0 : (∑ s, pr s : ℝ) ≠ 0 := (Finset.sum_pos (fun s _ => hpos s) Finset.univ_nonempty).ne'
  -- the eight shares add up to the plain weighted sum over all positions
  have hcw : 0 + cw d enc W 0 e + cw d enc W 1 e + cw d enc W 2 e + cw d enc W 3 e + cw d enc W 4 e
      + cw d enc W 5 e + cw d enc W 6 e + cw d enc W 7 e = ∑ s : Fin 4096, p d enc W s * enc s e := by
    rw [sum_chunks (fun s => p d enc W s * enc s e), Fin.sum_univ_eight]
    simp only [cw, zero_add]
  rw [sumK, hcw, lK_eq_lR, hL, Ideal.div_coe hL0, one_mul, sumR]
  simp only [attnR, hL, Ideal.div_coe hL0, hp, her]
  -- everything is now a real: (Σ pₛ·encₛ)·(1/l) = Σ (pₛ·(1/l))·encₛ by distributivity
  simp only [← EReal.coe_mul, ← coe_sum]
  rw [Finset.sum_mul]
  refine congrArg _ (Finset.sum_congr rfl (fun s _ => ?_))
  ring

end Cert.Row

end
-- ==== Proof.KBlock.lean ====
/-
  The kernel body on one block of two batch rows, read at an index.

  The body loads the decoder block and the weight matrix whole and the encoder block in eight slices of 512
  positions.  Row by row it forms the projected decoder vector (a contraction with the rows of the weight matrix), the
  eight chunks of scores (contractions of that vector with the encoder rows), their maximum over all 4096 positions,
  the exponentials of the scores less the maximum, the normaliser as the eight chunk sums added left to right, and the
  weighted sum of the encoder rows accumulated chunk by chunk; it stores the weights times the reciprocal of the
  normaliser, and the accumulated sum times the same reciprocal.  Read at `(b, 0, s)` and `(b, 0, e)` the two stored
  blocks are `Cert.Row.attnK` and `Cert.Row.sumK` of row `b`'s decoder vector, encoder slab and the weight matrix.
  Changes of float format are the identity on the extended reals, each matrix product into a zero accumulator is the
  plain sum over its one contracted axis, and the literal `1.0` is the real number one.
-/
import proofs.«426919_j78829829751023_3_alg».proof.Proof.Gen.KernelIdeal.Frame
import proofs.«426919_j78829829751023_3_alg».proof.Proof.Row
import Idealize.ShloMosaic.Lib.ValueIdx
import Idealize.ShloMosaic.Lib.Pipeline.Value
import Idealize.ShloMosaic.PureOps.Ideal.Laws

noncomputable section

open scoped BigOperators

namespace Cert.KernelIdeal.Blk

open Idealize.ShloMosaic Idealize.ShloMosaic.ValueIdx Cert.KernelIdeal Cert.KernelIdeal.Gen

/-! ## Layout operations of the body read at an index -/

theorem cast_in {α : Type} (x : S2x512.Idx → α) (h : S2x512.ShapeCasts S2x1x512) (b : Fin 2) (k : Fin 512) :
    shapeCast S2x1x512 x h (ix3 b 0 k) = x (ix2 b k) :=
  shapeCast_apply x h (ix3 b 0 k) (ix2 b k) (by
    rw [Shape.rowMajor_val_three, Shape.rowMajor_val_two]
    show b.val * 512 + k.val = (b.val * 1 + 0) * 512 + k.val
    omega)

theorem cast_out {α : Type} (y : S2x1x512.Idx → α) (h : S2x1x512.ShapeCasts S2x512) (b : Fin 2) (k : Fin 512) :
    shapeCast S2x512 y h (ix2 b k) = y (ix3 b 0 k) :=
  shapeCast_apply y h (ix2 b k) (ix3 b 0 k) (by
    rw [Shape.rowMajor_val_three, Shape.rowMajor_val_two]
    show (b.val * 1 + 0) * 512 + k.val = b.val * 512 + k.val
    omega)

theorem cast_col {α : Type} (y : S2.Idx → α) (h : S2.ShapeCasts S2x1) (b : Fin 2) :
    shapeCast S2x1 y h (ix2 b 0) = y (ix1 b) :=
  shapeCast_apply y h (ix2 b 0) (ix1 b) (by
    rw [Shape.rowMajor_val_one, Shape.rowMajor_val_two]
    show b.val = b.val * 1 + 0
    omega)

theorem cast_attn {α : Type} (y : S2x4096.Idx → α) (h : S2x4096.ShapeCasts S2x1x4096) (b : Fin 2) (s : Fin 4096) :
    shapeCast S2x1x4096 y h (ix3 b 0 s) = y (ix2 b s) :=
  shapeCast_apply y h (ix3 b 0 s) (ix2 b s) (by
    rw [Shape.rowMajor_val_three, Shape.rowMajor_val_two]
    show b.val * 4096 + s.val = (b.val * 1 + 0) * 4096 + s.val
    omega)

theorem bcast_col {α : Type} (m : S2x1.Idx → α) (h : S2x1.Broadcasts S2x512) (b : Fin 2) (j : Fin 512) :
    broadcastTo S2x512 m h (ix2 b j) = m (ix2 b 0) :=
  broadcastTo_apply m h (ix2 b j) (ix2 b 0) (fun a => by
    match a with
    | ⟨0, _⟩ => show b.val = if (2 : Nat) = 1 then 0 else b.val; rw [if_neg (by decide)]
    | ⟨1, _⟩ => show 0 = if (1 : Nat) = 1 then 0 else j.val; rw [if_pos rfl])

theorem bcast_col_wide {α : Type} (m : S2x1.Idx → α) (h : S2x1.Broadcasts S2x4096) (b : Fin 2) (s : Fin 4096) :
    broadcastTo S2x4096 m h (ix2 b s) = m (ix2 b 0) :=
  broadcastTo_apply m h (ix2 b s) (ix2 b 0) (fun a => by
    match a with
    | ⟨0, _⟩ => show b.val = if (2 : Nat) = 1 then 0 else b.val; rw [if_neg (by decide)]
    | ⟨1, _⟩ => show 0 = if (1 : Nat) = 1 then 0 else s.val; rw [if_pos rfl])

/-! ## Lane reductions of the body read at a row -/

theorem ofBits_ninf : Ideal.ofBits .f32 0xFF800000#32 = (⊥ : EReal) := by simp [Ideal.ofBits, Ideal.ieee]

theorem lane_sum (p : FVec Ideal S2x512 .f32) (h : S2x512.Reduces [1] S2) (hφ : FKind.Formats .f32)
    (hacc : (0x00000000#32 : BitVec 32) = FKind.add.neutral .f32 hφ) (b : Fin 2) :
    multiReduction .add [1] S2 p 0x00000000#32 h hφ hacc (ix1 b) = ∑ j : Fin 512, p (ix2 b j) := by
  refine (Ideal.multiReduction_add_single p _ h hφ hacc (ix1 b)).trans ?_
  show (∑ k : Fin 512, p (h.lift (ix1 b) k)) = _
  refine Finset.sum_congr rfl fun k _ => congrArg p ?_
  funext c; apply Fin.ext
  match c with
  | ⟨0, _⟩ => rfl
  | ⟨1, _⟩ => rfl

theorem lane_max (x : FVec Ideal S2x4096 .f32) (h : S2x4096.Reduces [1] S2) (hφ : FKind.Formats .f32)
    (hacc : (0xFF800000#32 : BitVec 32) = FKind.maximumf.neutral .f32 hφ) (b : Fin 2) :
    multiReduction .maximumf [1] S2 x 0xFF800000#32 h hφ hacc (ix1 b)
      = (Finset.univ : Finset (Fin 4096)).fold max ⊥ (fun s => x (ix2 b s)) := by
  refine (Ideal.multiReduction_maximumf_single x _ h hφ hacc (ix1 b)).trans ?_
  show (Finset.univ : Finset (Fin 4096)).fold max (Ideal.ofBits .f32 0xFF800000#32) (x ∘ h.lift (ix1 b)) = _
  rw [ofBits_ninf]
  refine congrArg (fun f => (Finset.univ : Finset (Fin 4096)).fold max ⊥ f) (funext fun k => congrArg x ?_)
  funext c; apply Fin.ext
  match c with
  | ⟨0, _⟩ => rfl
  | ⟨1, _⟩ => rfl

/-! ## The three matrix products of the body read at an index

The projection contracts the decoder row with a row of the weight matrix; the score product contracts the projected
vector with an encoder row over the features; the weighted-sum product contracts the weights with the encoder rows
over the positions of a chunk.  Each is the plain sum over the one contracted axis. -/

theorem lhsA_0 (i : S2x512.Idx) (q : dot_S2x512_S512x512_S2x512_1_1_0_0_n_n.contr.Idx) : (dot_S2x512_S512x512_S2x512_1_1_0_0_n_n.lhsIdx i q 0).val = (i 0).val := by
  unfold DotDims.lhsIdx
  rw [dif_neg (show ¬(0 : Fin S2x512.rank) ∈ dot_S2x512_S512x512_S2x512_1_1_0_0_n_n.lhsBatch by decide), dif_pos (show (0 : Fin S2x512.rank) ∈ dot_S2x512_S512x512_S2x512_1_1_0_0_n_n.lhsNonContracting by decide)]
  rfl
theorem lhsA_1 (i : S2x512.Idx) (q : dot_S2x512_S512x512_S2x512_1_1_0_0_n_n.contr.Idx) : (dot_S2x512_S512x512_S2x512_1_1_0_0_n_n.lhsIdx i q 1).val = (q ⟨0, by decide⟩).val :=
  dot_S2x512_S512x512_S2x512_1_1_0_0_n_n.lhsIdx_val_of_single rfl i q
theorem rhsA_0 (i : S2x512.Idx) (q : dot_S2x512_S512x512_S2x512_1_1_0_0_n_n.contr.Idx) : (dot_S2x512_S512x512_S2x512_1_1_0_0_n_n.rhsIdx i q 0).val = (i 1).val := by
  unfold DotDims.rhsIdx
  rw [dif_neg (show ¬(0 : Fin S512x512.rank) ∈ dot_S2x512_S512x512_S2x512_1_1_0_0_n_n.rhsBatch by decide), dif_pos (show (0 : Fin S512x512.rank) ∈ dot_S2x512_S512x512_S2x512_1_1_0_0_n_n.rhsNonContracting by decide)]
  rfl
theorem rhsA_1 (i : S2x512.Idx) (q : dot_S2x512_S512x512_S2x512_1_1_0_0_n_n.contr.Idx) : (dot_S2x512_S512x512_S2x512_1_1_0_0_n_n.rhsIdx i q 1).val = (q ⟨0, by decide⟩).val :=
  dot_S2x512_S512x512_S2x512_1_1_0_0_n_n.rhsIdx_val_of_single rfl i q

theorem mmA (l : FVec Ideal S2x512 .bf16) (r : FVec Ideal S512x512 .bf16) (b : Fin 2) (e : Fin 512) :
    matmul dot_S2x512_S512x512_S2x512_1_1_0_0_n_n none l r (constant S2x512 .f32 0x00000000#32) (ix2 b e)
      = ∑ k : Fin 512, l (ix2 b k) * r (ix2 e k) := by
  simp only [matmul]
  rw [Ideal.matmul_constant_zero_apply, ← Equiv.sum_comp (contrEquiv1 dot_S2x512_S512x512_S2x512_1_1_0_0_n_n 512 rfl rfl).symm]
  refine Finset.sum_congr rfl fun k _ => ?_
  have hk := contrEquiv1_symm_val dot_S2x512_S512x512_S2x512_1_1_0_0_n_n 512 rfl rfl k
  have el : dot_S2x512_S512x512_S2x512_1_1_0_0_n_n.lhsIdx (ix2 b e) ((contrEquiv1 dot_S2x512_S512x512_S2x512_1_1_0_0_n_n 512 rfl rfl).symm k) = ix2 b k := funext fun a => Fin.ext (by
    match a with
    | ⟨0, _⟩ => exact lhsA_0 _ _
    | ⟨1, _⟩ => exact (lhsA_1 _ _).trans hk)
  have er : dot_S2x512_S512x512_S2x512_1_1_0_0_n_n.rhsIdx (ix2 b e) ((contrEquiv1 dot_S2x512_S512x512_S2x512_1_1_0_0_n_n 512 rfl rfl).symm k) = ix2 e k := funext fun a => Fin.ext (by
    match a with
    | ⟨0, _⟩ => exact rhsA_0 _ _
    | ⟨1, _⟩ => exact (rhsA_1 _ _).trans hk)
  rw [el, er]

theorem lhsB_0 (i : S2x1x512.Idx) (q : dot_S2x1x512_S2x512x512_S2x1x512_2_2_1_1_0_0.contr.Idx) : (dot_S2x1x512_S2x512x512_S2x1x512_2_2_1_1_0_0.lhsIdx i q 0).val = (i 0).val := by
  unfold DotDims.lhsIdx
  rw [dif_pos (show (0 : Fin S2x1x512.rank) ∈ dot_S2x1x512_S2x512x512_S2x1x512_2_2_1_1_0_0.lhsBatch by decide)]
  rfl
theorem lhsB_1 (i : S2x1x512.Idx) (q : dot_S2x1x512_S2x512x512_S2x1x512_2_2_1_1_0_0.contr.Idx) : (dot_S2x1x512_S2x512x512_S2x1x512_2_2_1_1_0_0.lhsIdx i q 1).val = (i 1).val := by
  unfold DotDims.lhsIdx
  rw [dif_neg (show ¬(1 : Fin S2x1x512.rank) ∈ dot_S2x1x512_S2x512x512_S2x1x512_2_2_1_1_0_0.lhsBatch by decide), dif_pos (show (1 : Fin S2x1x512.rank) ∈ dot_S2x1x512_S2x512x512_S2x1x512_2_2_1_1_0_0.lhsNonContracting by decide)]
  rfl
theorem lhsB_2 (i : S2x1x512.Idx) (q : dot_S2x1x512_S2x512x512_S2x1x512_2_2_1_1_0_0.contr.Idx) : (dot_S2x1x512_S2x512x512_S2x1x512_2_2_1_1_0_0.lhsIdx i q 2).val = (q ⟨0, by decide⟩).val :=
  dot_S2x1x512_S2x512x512_S2x1x512_2_2_1_1_0_0.lhsIdx_val_of_single rfl i q
theorem rhsB_0 (i : S2x1x512.Idx) (q : dot_S2x1x512_S2x512x512_S2x1x512_2_2_1_1_0_0.contr.Idx) : (dot_S2x1x512_S2x512x512_S2x1x512_2_2_1_1_0_0.rhsIdx i q 0).val = (i 0).val := by
  unfold DotDims.rhsIdx
  rw [dif_pos (show (0 : Fin S2x512x512.rank) ∈ dot_S2x1x512_S2x512x512_S2x1x512_2_2_1_1_0_0.rhsBatch by decide)]
  rfl
theorem rhsB_1 (i : S2x1x512.Idx) (q : dot_S2x1x512_S2x512x512_S2x1x512_2_2_1_1_0_0.contr.Idx) : (dot_S2x1x512_S2x512x512_S2x1x512_2_2_1_1_0_0.rhsIdx i q 1).val = (i 2).val := by
  unfold DotDims.rhsIdx
  rw [dif_neg (show ¬(1 : Fin S2x512x512.rank) ∈ dot_S2x1x512_S2x512x512_S2x1x512_2_2_1_1_0_0.rhsBatch by decide), dif_pos (show (1 : Fin S2x512x512.rank) ∈ dot_S2x1x512_S2x512x512_S2x1x512_2_2_1_1_0_0.rhsNonContracting by decide)]
  rfl
theorem rhsB_2 (i : S2x1x512.Idx) (q : dot_S2x1x512_S2x512x512_S2x1x512_2_2_1_1_0_0.contr.Idx) : (dot_S2x1x512_S2x512x512_S2x1x512_2_2_1_1_0_0.rhsIdx i q 2).val = (q ⟨0, by decide⟩).val :=
  dot_S2x1x512_S2x512x512_S2x1x512_2_2_1_1_0_0.rhsIdx_val_of_single rfl i q

theorem mmB (l : FVec Ideal S2x1x512 .bf16) (r : FVec Ideal S2x512x512 .bf16) (b : Fin 2) (j : Fin 512) :
    matmul dot_S2x1x512_S2x512x512_S2x1x512_2_2_1_1_0_0 none l r (constant S2x1x512 .f32 0x00000000#32) (ix3 b 0 j)
      = ∑ k : Fin 512, l (ix3 b 0 k) * r (ix3 b j k) := by
  simp only [matmul]
  rw [Ideal.matmul_constant_zero_apply, ← Equiv.sum_comp (contrEquiv1 dot_S2x1x512_S2x512x512_S2x1x512_2_2_1_1_0_0 512 rfl rfl).symm]
  refine Finset.sum_congr rfl fun k _ => ?_
  have hk := contrEquiv1_symm_val dot_S2x1x512_S2x512x512_S2x1x512_2_2_1_1_0_0 512 rfl rfl k
  have el : dot_S2x1x512_S2x512x512_S2x1x512_2_2_1_1_0_0.lhsIdx (ix3 b 0 j) ((contrEquiv1 dot_S2x1x512_S2x512x512_S2x1x512_2_2_1_1_0_0 512 rfl rfl).symm k) = ix3 b 0 k := funext fun a => Fin.ext (by
    match a with
    | ⟨0, _⟩ => exact lhsB_0 _ _
    | ⟨1, _⟩ => exact lhsB_1 _ _
    | ⟨2, _⟩ => exact (lhsB_2 _ _).trans hk)
  have er : dot_S2x1x512_S2x512x512_S2x1x512_2_2_1_1_0_0.rhsIdx (ix3 b 0 j) ((contrEquiv1 dot_S2x1x512_S2x512x512_S2x1x512_2_2_1_1_0_0 512 rfl rfl).symm k) = ix3 b j k := funext fun a => Fin.ext (by
    match a with
    | ⟨0, _⟩ => exact rhsB_0 _ _
    | ⟨1, _⟩ => exact rhsB_1 _ _
    | ⟨2, _⟩ => exact (rhsB_2 _ _).trans hk)
  rw [el, er]

theorem lhsC_0 (i : S2x1x512.Idx) (q : dot_S2x1x512_S2x512x512_S2x1x512_2_1_1_2_0_0.contr.Idx) : (dot_S2x1x512_S2x512x512_S2x1x512_2_1_1_2_0_0.lhsIdx i q 0).val = (i 0).val := by
  unfold DotDims.lhsIdx
  rw [dif_pos (show (0 : Fin S2x1x512.rank) ∈ dot_S2x1x512_S2x512x512_S2x1x512_2_1_1_2_0_0.lhsBatch by decide)]
  rfl
theorem lhsC_1 (i : S2x1x512.Idx) (q : dot_S2x1x512_S2x512x512_S2x1x512_2_1_1_2_0_0.contr.Idx) : (dot_S2x1x512_S2x512x512_S2x1x512_2_1_1_2_0_0.lhsIdx i q 1).val = (i 1).val := by
  unfold DotDims.lhsIdx
  rw [dif_neg (show ¬(1 : Fin S2x1x512.rank) ∈ dot_S2x1x512_S2x512x512_S2x1x512_2_1_1_2_0_0.lhsBatch by decide), dif_pos (show (1 : Fin S2x1x512.rank) ∈ dot_S2x1x512_S2x512x512_S2x1x512_2_1_1_2_0_0.lhsNonContracting by decide)]
  rfl
theorem lhsC_2 (i : S2x1x512.Idx) (q : dot_S2x1x512_S2x512x512_S2x1x512_2_1_1_2_0_0.contr.Idx) : (dot_S2x1x512_S2x512x512_S2x1x512_2_1_1_2_0_0.lhsIdx i q 2).val = (q ⟨0, by decide⟩).val :=
  dot_S2x1x512_S2x512x512_S2x1x512_2_1_1_2_0_0.lhsIdx_val_of_single rfl i q
theorem rhsC_0 (i : S2x1x512.Idx) (q : dot_S2x1x512_S2x512x512_S2x1x512_2_1_1_2_0_0.contr.Idx) : (dot_S2x1x512_S2x512x512_S2x1x512_2_1_1_2_0_0.rhsIdx i q 0).val = (i 0).val := by
  unfold DotDims.rhsIdx
  rw [dif_pos (show (0 : Fin S2x512x512.rank) ∈ dot_S2x1x512_S2x512x512_S2x1x512_2_1_1_2_0_0.rhsBatch by decide)]
  rfl
theorem rhsC_2 (i : S2x1x512.Idx) (q : dot_S2x1x512_S2x512x512_S2x1x512_2_1_1_2_0_0.contr.Idx) : (dot_S2x1x512_S2x512x512_S2x1x512_2_1_1_2_0_0.rhsIdx i q 2).val = (i 2).val := by
  unfold DotDims.rhsIdx
  rw [dif_neg (show ¬(2 : Fin S2x512x512.rank) ∈ dot_S2x1x512_S2x512x512_S2x1x512_2_1_1_2_0_0.rhsBatch by decide), dif_pos (show (2 : Fin S2x512x512.rank) ∈ dot_S2x1x512_S2x512x512_S2x1x512_2_1_1_2_0_0.rhsNonContracting by decide)]
  rfl
theorem rhsC_1 (i : S2x1x512.Idx) (q : dot_S2x1x512_S2x512x512_S2x1x512_2_1_1_2_0_0.contr.Idx) : (dot_S2x1x512_S2x512x512_S2x1x512_2_1_1_2_0_0.rhsIdx i q 1).val = (q ⟨0, by decide⟩).val :=
  dot_S2x1x512_S2x512x512_S2x1x512_2_1_1_2_0_0.rhsIdx_val_of_single rfl i q

theorem mmC (l : FVec Ideal S2x1x512 .bf16) (r : FVec Ideal S2x512x512 .bf16) (b : Fin 2) (e : Fin 512) :
    matmul dot_S2x1x512_S2x512x512_S2x1x512_2_1_1_2_0_0 none l r (constant S2x1x512 .f32 0x00000000#32) (ix3 b 0 e)
      = ∑ k : Fin 512, l (ix3 b 0 k) * r (ix3 b k e) := by
  simp only [matmul]
  rw [Ideal.matmul_constant_zero_apply, ← Equiv.sum_comp (contrEquiv1 dot_S2x1x512_S2x512x512_S2x1x512_2_1_1_2_0_0 512 rfl rfl).symm]
  refine Finset.sum_congr rfl fun k _ => ?_
  have hk := contrEquiv1_symm_val dot_S2x1x512_S2x512x512_S2x1x512_2_1_1_2_0_0 512 rfl rfl k
  have el : dot_S2x1x512_S2x512x512_S2x1x512_2_1_1_2_0_0.lhsIdx (ix3 b 0 e) ((contrEquiv1 dot_S2x1x512_S2x512x512_S2x1x512_2_1_1_2_0_0 512 rfl rfl).symm k) = ix3 b 0 k := funext fun a => Fin.ext (by
    match a with
    | ⟨0, _⟩ => exact lhsC_0 _ _
    | ⟨1, _⟩ => exact lhsC_1 _ _
    | ⟨2, _⟩ => exact (lhsC_2 _ _).trans hk)
  have er : dot_S2x1x512_S2x512x512_S2x1x512_2_1_1_2_0_0.rhsIdx (ix3 b 0 e) ((contrEquiv1 dot_S2x1x512_S2x512x512_S2x1x512_2_1_1_2_0_0 512 rfl rfl).symm k) = ix3 b k e := funext fun a => Fin.ext (by
    match a with
    | ⟨0, _⟩ => exact rhsC_0 _ _
    | ⟨1, _⟩ => exact (rhsC_1 _ _).trans hk
    | ⟨2, _⟩ => exact rhsC_2 _ _)
  rw [el, er]

/-! ## The body's loads

The decoder block and the weight matrix are loaded whole; the encoder block is loaded in eight slices of 512
positions, slice `c` starting at position `512 c`. -/

theorem hz3 : (![0, 0, 0] : Fin 3 → Nat) = fun _ => 0 := by funext a; fin_cases a <;> rfl
theorem hz2 : (![0, 0] : Fin 2 → Nat) = fun _ => 0 := by funext a; fin_cases a <;> rfl

theorem ld_x0 (x0 : Vec Ideal S2x1x512 .f32) : View.ld x0 r0_0 = x0 := View.ld_unit_zero (S := S2x1x512) hz3 _ x0
theorem ld_x2 (x2 : Vec Ideal S512x512 .f32) : View.ld x2 r0_1 = x2 := View.ld_unit_zero (S := S512x512) hz2 _ x2

theorem ld_enc0 (x1 : Vec Ideal S2x4096x512 .f32) (b : Fin 2) (j : Fin 512) (e : Fin 512) :
    View.ld x1 r0_2 (ix3 b j e) = x1 (ix3 b (Cert.Row.pos 0 j) e) := by
  show x1 (r0_2.idx (ix3 b j e)) = _
  refine congrArg x1 (funext fun a => Fin.ext ?_)
  match a with
  | ⟨0, _⟩ => show 0 + 1 * b.val = b.val; omega
  | ⟨1, _⟩ => show 0 + 1 * j.val = 512 * 0 + j.val; omega
  | ⟨2, _⟩ => show 0 + 1 * e.val = e.val; omega

theorem ld_enc1 (x1 : Vec Ideal S2x4096x512 .f32) (b : Fin 2) (j : Fin 512) (e : Fin 512) :
    View.ld x1 r0_3 (ix3 b j e) = x1 (ix3 b (Cert.Row.pos 1 j) e) := by
  show x1 (r0_3.idx (ix3 b j e)) = _
  refine congrArg x1 (funext fun a => Fin.ext ?_)
  match a with
  | ⟨0, _⟩ => show 0 + 1 * b.val = b.val; omega
  | ⟨1, _⟩ => show 512 + 1 * j.val = 512 * 1 + j.val; omega
  | ⟨2, _⟩ => show 0 + 1 * e.val = e.val; omega

theorem ld_enc2 (x1 : Vec Ideal S2x4096x512 .f32) (b : Fin 2) (j : Fin 512) (e : Fin 512) :
    View.ld x1 r0_4 (ix3 b j e) = x1 (ix3 b (Cert.Row.pos 2 j) e) := by
  show x1 (r0_4.idx (ix3 b j e)) = _
  refine congrArg x1 (funext fun a => Fin.ext ?_)
  match a with
  | ⟨0, _⟩ => show 0 + 1 * b.val = b.val; omega
  | ⟨1, _⟩ => show 1024 + 1 * j.val = 512 * 2 + j.val; omega
  | ⟨2, _⟩ => show 0 + 1 * e.val = e.val; omega

theorem ld_enc3 (x1 : Vec Ideal S2x4096x512 .f32) (b : Fin 2) (j : Fin 512) (e : Fin 512) :
    View.ld x1 r0_5 (ix3 b j e) = x1 (ix3 b (Cert.Row.pos 3 j) e) := by
  show x1 (r0_5.idx (ix3 b j e)) = _
  refine congrArg x1 (funext fun a => Fin.ext ?_)
  match a with
  | ⟨0, _⟩ => show 0 + 1 * b.val = b.val; omega
  | ⟨1, _⟩ => show 1536 + 1 * j.val = 512 * 3 + j.val; omega
  | ⟨2, _⟩ => show 0 + 1 * e.val = e.val; omega

theorem ld_enc4 (x1 : Vec Ideal S2x4096x512 .f32) (b : Fin 2) (j : Fin 512) (e : Fin 512) :
    View.ld x1 r0_6 (ix3 b j e) = x1 (ix3 b (Cert.Row.pos 4 j) e) := by
  show x1 (r0_6.idx (ix3 b j e)) = _
  refine congrArg x1 (funext fun a => Fin.ext ?_)
  match a with
  | ⟨0, _⟩ => show 0 + 1 * b.val = b.val; omega
  | ⟨1, _⟩ => show 2048 + 1 * j.val = 512 * 4 + j.val; omega
  | ⟨2, _⟩ => show 0 + 1 * e.val = e.val; omega

theorem ld_enc5 (x1 : Vec Ideal S2x4096x512 .f32) (b : Fin 2) (j : Fin 512) (e : Fin 512) :
    View.ld x1 r0_7 (ix3 b j e) = x1 (ix3 b (Cert.Row.pos 5 j) e) := by
  show x1 (r0_7.idx (ix3 b j e)) = _
  refine congrArg x1 (funext fun a => Fin.ext ?_)
  match a with
  | ⟨0, _⟩ => show 0 + 1 * b.val = b.val; omega
  | ⟨1, _⟩ => show 2560 + 1 * j.val = 512 * 5 + j.val; omega
  | ⟨2, _⟩ => show 0 + 1 * e.val = e.val; omega

theorem ld_enc6 (x1 : Vec Ideal S2x4096x512 .f32) (b : Fin 2) (j : Fin 512) (e : Fin 512) :
    View.ld x1 r0_8 (ix3 b j e) = x1 (ix3 b (Cert.Row.pos 6 j) e) := by
  show x1 (r0_8.idx (ix3 b j e)) = _
  refine congrArg x1 (funext fun a => Fin.ext ?_)
  match a with
  | ⟨0, _⟩ => show 0 + 1 * b.val = b.val; omega
  | ⟨1, _⟩ => show 3072 + 1 * j.val = 512 * 6 + j.val; omega
  | ⟨2, _⟩ => show 0 + 1 * e.val = e.val; omega

theorem ld_enc7 (x1 : Vec Ideal S2x4096x512 .f32) (b : Fin 2) (j : Fin 512) (e : Fin 512) :
    View.ld x1 r0_9 (ix3 b j e) = x1 (ix3 b (Cert.Row.pos 7 j) e) := by
  show x1 (r0_9.idx (ix3 b j e)) = _
  refine congrArg x1 (funext fun a => Fin.ext ?_)
  match a with
  | ⟨0, _⟩ => show 0 + 1 * b.val = b.val; omega
  | ⟨1, _⟩ => show 3584 + 1 * j.val = 512 * 7 + j.val; omega
  | ⟨2, _⟩ => show 0 + 1 * e.val = e.val; omega

/-! ## The concatenation of eight chunks read at a position -/

theorem cat_apply (c0 c1 c2 c3 c4 c5 c6 c7 : FVec Ideal S2x512 .f32)
    (h : Shape.Concatenates [S2x512, S2x512, S2x512, S2x512, S2x512, S2x512, S2x512, S2x512] S2x4096 1)
    (b : Fin 2) (c : Fin 8) (j : Fin 512) :
    concatenate S2x4096 1 [⟨S2x512, c0⟩, ⟨S2x512, c1⟩, ⟨S2x512, c2⟩, ⟨S2x512, c3⟩, ⟨S2x512, c4⟩, ⟨S2x512, c5⟩, ⟨S2x512, c6⟩, ⟨S2x512, c7⟩] h
        (ix2 b (Cert.Row.pos c j))
      = (![c0, c1, c2, c3, c4, c5, c6, c7] c) (ix2 b j) :=
  concatenate_ofFn_apply (1 : Fin S2x4096.rank) (fun n : Fin 8 => ![c0, c1, c2, c3, c4, c5, c6, c7] n) h rfl 512 rfl
    (ix2 b (Cert.Row.pos c j)) c (by show (512 * c.val + j.val) / 512 = c.val; omega) (ix2 b j)
    (by show j.val = (512 * c.val + j.val) % 512; omega)
    (fun a ha => by
      match a with
      | ⟨0, _⟩ => rfl
      | ⟨1, _⟩ => exact absurd rfl ha)

/-! ## The body's chunk operations read at an index -/

theorem ofBits_one : Ideal.ofBits .f32 0x3F800000#32 = (1 : EReal) := IdealRules.sign_bit.ideal_onePat .f32

/-- The projection: entry `e` of row `b` is the decoder row against row `e` of the weight matrix. -/
theorem pay4_apply (v0 : Vec Ideal S2x1x512 .f32) (v3 : Vec Ideal S512x512 .f32) (b : Fin 2) (e : Fin 512) :
    k0_pay4 (F := Ideal) v0 v3 (ix2 b e) = ∑ k : Fin 512, v0 (ix3 b 0 k) * v3 (ix2 e k) := by
  unfold k0_pay4
  refine (mmA _ _ b e).trans (Finset.sum_congr rfl fun k _ => ?_)
  exact congrArg (· * v3 (ix2 e k)) (cast_out v0 _ b k)

/-- A chunk of scores: position `j` of the chunk is the projected row against encoder row `j` of the slice. -/
theorem lgt_apply (s6 : FVec Ideal S2x512 .bf16) (v : Vec Ideal S2x512x512 .f32) (h1 : S2x512.ShapeCasts S2x1x512)
    (h2 : FTy.bits .bf16 < FTy.bits .f32) (h3 : S2x1x512.ShapeCasts S2x512) (b : Fin 2) (j : Fin 512) :
    shapeCast S2x512 (matmul dot_S2x1x512_S2x512x512_S2x1x512_2_2_1_1_0_0 none (shapeCast S2x1x512 s6 h1) (truncf .bf16 v h2) (constant S2x1x512 .f32 0x00000000#32)) h3 (ix2 b j)
      = ∑ e : Fin 512, s6 (ix2 b e) * v (ix3 b j e) := by
  refine (cast_out _ h3 b j).trans ((mmB _ _ b j).trans (Finset.sum_congr rfl fun e _ => ?_))
  exact congrArg (· * v (ix3 b j e)) (cast_in s6 h1 b e)

/-- A chunk's share of the weighted sum: feature `e` is the chunk's weights against column `e` of the slice. -/
theorem wsum_apply (pv : FVec Ideal S2x512 .f32) (v : Vec Ideal S2x512x512 .f32) (h1 : S2x512.ShapeCasts S2x1x512)
    (h2 : FTy.bits .bf16 < FTy.bits .f32) (h2' : FTy.bits .bf16 < FTy.bits .f32) (h3 : S2x1x512.ShapeCasts S2x512) (b : Fin 2) (e : Fin 512) :
    shapeCast S2x512 (matmul dot_S2x1x512_S2x512x512_S2x1x512_2_1_1_2_0_0 none (shapeCast S2x1x512 (truncf .bf16 pv h2) h1) (truncf .bf16 v h2') (constant S2x1x512 .f32 0x00000000#32)) h3 (ix2 b e)
      = ∑ j : Fin 512, pv (ix2 b j) * v (ix3 b j e) := by
  refine (cast_out _ h3 b e).trans ((mmC _ _ b e).trans (Finset.sum_congr rfl fun j _ => ?_))
  exact congrArg (· * v (ix3 b j e)) (cast_in (truncf .bf16 pv h2) h1 b j)

/-- A chunk of unnormalised weights: the exponential of the score less the row's maximum. -/
theorem expc_apply (lg : FVec Ideal S2x512 .f32) (m : FVec Ideal S2x1 .f32) (h : S2x1.Broadcasts S2x512) (b : Fin 2) (j : Fin 512) :
    exp (subf lg (broadcastTo S2x512 m h)) (ix2 b j) = Ideal.exp (lg (ix2 b j) - m (ix2 b 0)) := by
  show Ideal.exp (lg (ix2 b j) - broadcastTo S2x512 m h (ix2 b j)) = _
  rw [bcast_col m h b j]

/-- A row sum kept as a column. -/
theorem rsum_apply (pv : FVec Ideal S2x512 .f32) (h : S2x512.Reduces [1] S2) (hφ : FKind.Formats .f32)
    (hacc : (0x00000000#32 : BitVec 32) = FKind.add.neutral .f32 hφ) (h' : S2.ShapeCasts S2x1) (b : Fin 2) :
    shapeCast S2x1 (multiReduction .add [1] S2 pv 0x00000000#32 h hφ hacc) h' (ix2 b 0) = ∑ j : Fin 512, pv (ix2 b j) :=
  (cast_col _ h' b).trans (lane_sum pv h hφ hacc b)

/-- A row maximum kept as a column. -/
theorem rmax_apply (x : FVec Ideal S2x4096 .f32) (h : S2x4096.Reduces [1] S2) (hφ : FKind.Formats .f32)
    (hacc : (0xFF800000#32 : BitVec 32) = FKind.maximumf.neutral .f32 hφ) (h' : S2.ShapeCasts S2x1) (b : Fin 2) :
    shapeCast S2x1 (multiReduction .maximumf [1] S2 x 0xFF800000#32 h hφ hacc) h' (ix2 b 0)
      = (Finset.univ : Finset (Fin 4096)).fold max ⊥ (fun s => x (ix2 b s)) :=
  (cast_col _ h' b).trans (lane_max x h hφ hacc b)

/-- Every position is position `j` of some chunk `c`. -/
theorem pos_surj (s : Fin 4096) : ∃ (c : Fin 8) (j : Fin 512), s = Cert.Row.pos c j :=
  ⟨⟨s.val / 512, by have := s.isLt; omega⟩, ⟨s.val % 512, by omega⟩, Fin.ext (by show s.val = 512 * (s.val / 512) + s.val % 512; omega)⟩

/-- The stored attention block: the concatenated weights times the reciprocal of the normaliser. -/
theorem pay2_apply (v54 v67 v80 v93 v106 v119 v132 v145 : FVec Ideal S2x512 .f32) (v148 v156 : FVec Ideal S2x1 .f32)
    (b : Fin 2) (c : Fin 8) (j : Fin 512) :
    k0_pay2 (F := Ideal) v54 v67 v80 v93 v106 v119 v132 v145 v148 v156 (ix3 b 0 (Cert.Row.pos c j))
      = (![v54, v67, v80, v93, v106, v119, v132, v145] c) (ix2 b j) * Ideal.div (v156 (ix2 b 0)) (v148 (ix2 b 0)) := by
  unfold k0_pay2 k0_pay1
  refine (cast_attn _ _ b (Cert.Row.pos c j)).trans ?_
  refine congrArg₂ (· * ·) (cat_apply v54 v67 v80 v93 v106 v119 v132 v145 _ b c j) ?_
  exact bcast_col_wide _ _ b (Cert.Row.pos c j)

/-- The stored weighted-sum block: the accumulated sum times the reciprocal of the normaliser. -/
theorem pay3_apply (v148 : FVec Ideal S2x1 .f32) (v155 : FVec Ideal S2x512 .f32) (v156 : FVec Ideal S2x1 .f32) (b : Fin 2) (e : Fin 512) :
    k0_pay3 (F := Ideal) v148 v155 v156 (ix3 b 0 e) = v155 (ix2 b e) * Ideal.div (v156 (ix2 b 0)) (v148 (ix2 b 0)) := by
  unfold k0_pay3 k0_pay1
  refine (cast_in _ _ b e).trans ?_
  exact congrArg (v155 (ix2 b e) * ·) (bcast_col _ _ b e)

/-! ## The body of this kernel, payload by payload

`dR`, `eR`, `wM` are the decoder row, the encoder slab and the weight matrix a block row's computation reads. -/

abbrev dR (x0 : Vec Ideal S2x1x512 .f32) (b : Fin 2) : Fin 512 → EReal := fun k => x0 (ix3 b 0 k)
abbrev eR (x1 : Vec Ideal S2x4096x512 .f32) (b : Fin 2) : Fin 4096 → Fin 512 → EReal := fun s e => x1 (ix3 b s e)
abbrev wM (x2 : Vec Ideal S512x512 .f32) : Fin 512 → Fin 512 → EReal := fun e k => x2 (ix2 e k)

section Block

variable (x0 : Vec Ideal S2x1x512 .f32) (x1 : Vec Ideal S2x4096x512 .f32) (x2 : Vec Ideal S512x512 .f32)

local notation "X0" => View.ld x0 r0_0
local notation "X2" => View.ld x2 r0_1
local notation "En0" => View.ld x1 r0_2
local notation "En1" => View.ld x1 r0_3
local notation "En2" => View.ld x1 r0_4
local notation "En3" => View.ld x1 r0_5
local notation "En4" => View.ld x1 r0_6
local notation "En5" => View.ld x1 r0_7
local notation "En6" => View.ld x1 r0_8
local notation "En7" => View.ld x1 r0_9
local notation "S6" => k0_pay4 (F := Ideal) X0 X2
local notation "Lg0" => k0_pay5 X0 X2 En0
local notation "Lg1" => k0_pay6 X0 X2 En1
local notation "Lg2" => k0_pay7 X0 X2 En2
local notation "Lg3" => k0_pay8 X0 X2 En3
local notation "Lg4" => k0_pay9 X0 X2 En4
local notation "Lg5" => k0_pay10 S6 En5
local notation "Lg6" => k0_pay11 S6 En6
local notation "Lg7" => k0_pay12 S6 En7
local notation "Mx" => k0_pay13 S6 Lg0 Lg1 Lg2 Lg3 Lg4 En5 En6 En7
local notation "Pw0" => k0_pay14 S6 Lg0 Lg1 Lg2 Lg3 Lg4 En5 En6 En7
local notation "Pw1" => k0_pay16 S6 Lg0 Lg1 Lg2 Lg3 Lg4 En5 En6 En7
local notation "Pw2" => k0_pay18 Lg2 Mx
local notation "Pw3" => k0_pay19 Lg3 Mx
local notation "Pw4" => k0_pay21 Lg4 Mx
local notation "Pw5" => k0_pay25 Lg5 Mx
local notation "Pw6" => k0_pay26 Lg6 Mx
local notation "Pw7" => k0_pay27 Lg7 Mx
local notation "N1" => k0_pay17 S6 Lg0 Lg1 Lg2 Lg3 Lg4 En5 En6 En7
local notation "N4" => k0_pay22 Lg2 Lg3 Lg4 Mx N1
local notation "N7" => k0_pay28 Lg5 Lg6 Lg7 Mx N4
local notation "Ac0" => k0_pay15 S6 Lg0 Lg1 Lg2 Lg3 Lg4 En5 En6 En7 En0
local notation "Ac3" => k0_pay20 Lg2 Lg3 Mx Ac0 Pw1 En1 En2 En3
local notation "Ac7" => k0_pay29 Lg5 Lg6 Lg7 Mx Ac3 (k0_pay23 En4) (k0_pay24 Lg4 Mx) En5 En6 En7

/-- The projected decoder row. -/
theorem s6_at (b : Fin 2) (e : Fin 512) : S6 (ix2 b e) = Cert.Row.sub (dR x0 b) (wM x2) e := by
  refine (pay4_apply X0 X2 b e).trans ?_
  rw [ld_x0, ld_x2]
  rfl

theorem lg0_at (b : Fin 2) (j : Fin 512) : Lg0 (ix2 b j) = Cert.Row.logit (dR x0 b) (eR x1 b) (wM x2) (Cert.Row.pos 0 j) := by
  refine (lgt_apply S6 En0 _ _ _ b j).trans ?_
  unfold Cert.Row.logit
  refine Finset.sum_congr rfl fun e _ => ?_
  rw [s6_at x0 x2 b e, ld_enc0 x1 b j e]

theorem lg1_at (b : Fin 2) (j : Fin 512) : Lg1 (ix2 b j) = Cert.Row.logit (dR x0 b) (eR x1 b) (wM x2) (Cert.Row.pos 1 j) := by
  refine (lgt_apply S6 En1 _ _ _ b j).trans ?_
  unfold Cert.Row.logit
  refine Finset.sum_congr rfl fun e _ => ?_
  rw [s6_at x0 x2 b e, ld_enc1 x1 b j e]

theorem lg2_at (b : Fin 2) (j : Fin 512) : Lg2 (ix2 b j) = Cert.Row.logit (dR x0 b) (eR x1 b) (wM x2) (Cert.Row.pos 2 j) := by
  refine (lgt_apply S6 En2 _ _ _ b j).trans ?_
  unfold Cert.Row.logit
  refine Finset.sum_congr rfl fun e _ => ?_
  rw [s6_at x0 x2 b e, ld_enc2 x1 b j e]

theorem lg3_at (b : Fin 2) (j : Fin 512) : Lg3 (ix2 b j) = Cert.Row.logit (dR x0 b) (eR x1 b) (wM x2) (Cert.Row.pos 3 j) := by
  refine (lgt_apply S6 En3 _ _ _ b j).trans ?_
  unfold Cert.Row.logit
  refine Finset.sum_congr rfl fun e _ => ?_
  rw [s6_at x0 x2 b e, ld_enc3 x1 b j e]

theorem lg4_at (b : Fin 2) (j : Fin 512) : Lg4 (ix2 b j) = Cert.Row.logit (dR x0 b) (eR x1 b) (wM x2) (Cert.Row.pos 4 j) := by
  refine (lgt_apply S6 En4 _ _ _ b j).trans ?_
  unfold Cert.Row.logit
  refine Finset.sum_congr rfl fun e _ => ?_
  rw [s6_at x0 x2 b e, ld_enc4 x1 b j e]

theorem lg5_at (b : Fin 2) (j : Fin 512) : Lg5 (ix2 b j) = Cert.Row.logit (dR x0 b) (eR x1 b) (wM x2) (Cert.Row.pos 5 j) := by
  refine (lgt_apply S6 En5 _ _ _ b j).trans ?_
  unfold Cert.Row.logit
  refine Finset.sum_congr rfl fun e _ => ?_
  rw [s6_at x0 x2 b e, ld_enc5 x1 b j e]

theorem lg6_at (b : Fin 2) (j : Fin 512) : Lg6 (ix2 b j) = Cert.Row.logit (dR x0 b) (eR x1 b) (wM x2) (Cert.Row.pos 6 j) := by
  refine (lgt_apply S6 En6 _ _ _ b j).trans ?_
  unfold Cert.Row.logit
  refine Finset.sum_congr rfl fun e _ => ?_
  rw [s6_at x0 x2 b e, ld_enc6 x1 b j e]

theorem lg7_at (b : Fin 2) (j : Fin 512) : Lg7 (ix2 b j) = Cert.Row.logit (dR x0 b) (eR x1 b) (wM x2) (Cert.Row.pos 7 j) := by
  refine (lgt_apply S6 En7 _ _ _ b j).trans ?_
  unfold Cert.Row.logit
  refine Finset.sum_congr rfl fun e _ => ?_
  rw [s6_at x0 x2 b e, ld_enc7 x1 b j e]

/-- The concatenated scores at a position. -/
theorem cat_lg (h : Shape.Concatenates [S2x512, S2x512, S2x512, S2x512, S2x512, S2x512, S2x512, S2x512] S2x4096 1) (b : Fin 2) (s : Fin 4096) :
    concatenate S2x4096 1 [⟨S2x512, Lg0⟩, ⟨S2x512, Lg1⟩, ⟨S2x512, Lg2⟩, ⟨S2x512, Lg3⟩, ⟨S2x512, Lg4⟩, ⟨S2x512, Lg5⟩, ⟨S2x512, Lg6⟩, ⟨S2x512, Lg7⟩] h (ix2 b s)
      = Cert.Row.logit (dR x0 b) (eR x1 b) (wM x2) s := by
  obtain ⟨c, j, rfl⟩ := pos_surj s
  refine (cat_apply Lg0 Lg1 Lg2 Lg3 Lg4 Lg5 Lg6 Lg7 h b c j).trans ?_
  fin_cases c
  · exact lg0_at x0 x1 x2 b j
  · exact lg1_at x0 x1 x2 b j
  · exact lg2_at x0 x1 x2 b j
  · exact lg3_at x0 x1 x2 b j
  · exact lg4_at x0 x1 x2 b j
  · exact lg5_at x0 x1 x2 b j
  · exact lg6_at x0 x1 x2 b j
  · exact lg7_at x0 x1 x2 b j

/-- The row maximum. -/
theorem mx_at (b : Fin 2) : Mx (ix2 b 0) = Cert.Row.mx (dR x0 b) (eR x1 b) (wM x2) := by
  refine (rmax_apply _ _ _ _ _ b).trans ?_
  unfold Cert.Row.mx
  exact congrArg (fun f => (Finset.univ : Finset (Fin 4096)).fold max ⊥ f) (funext fun s => cat_lg x0 x1 x2 _ b s)

theorem pw0_at (b : Fin 2) (j : Fin 512) : Pw0 (ix2 b j) = Cert.Row.p (dR x0 b) (eR x1 b) (wM x2) (Cert.Row.pos 0 j) := by
  refine (expc_apply Lg0 Mx _ b j).trans ?_
  unfold Cert.Row.p
  rw [lg0_at x0 x1 x2 b j, mx_at x0 x1 x2 b]

theorem pw1_at (b : Fin 2) (j : Fin 512) : Pw1 (ix2 b j) = Cert.Row.p (dR x0 b) (eR x1 b) (wM x2) (Cert.Row.pos 1 j) := by
  refine (expc_apply Lg1 Mx _ b j).trans ?_
  unfold Cert.Row.p
  rw [lg1_at x0 x1 x2 b j, mx_at x0 x1 x2 b]

theorem pw2_at (b : Fin 2) (j : Fin 512) : Pw2 (ix2 b j) = Cert.Row.p (dR x0 b) (eR x1 b) (wM x2) (Cert.Row.pos 2 j) := by
  refine (expc_apply Lg2 Mx _ b j).trans ?_
  unfold Cert.Row.p
  rw [lg2_at x0 x1 x2 b j, mx_at x0 x1 x2 b]

theorem pw3_at (b : Fin 2) (j : Fin 512) : Pw3 (ix2 b j) = Cert.Row.p (dR x0 b) (eR x1 b) (wM x2) (Cert.Row.pos 3 j) := by
  refine (expc_apply Lg3 Mx _ b j).trans ?_
  unfold Cert.Row.p
  rw [lg3_at x0 x1 x2 b j, mx_at x0 x1 x2 b]

theorem pw4_at (b : Fin 2) (j : Fin 512) : Pw4 (ix2 b j) = Cert.Row.p (dR x0 b) (eR x1 b) (wM x2) (Cert.Row.pos 4 j) := by
  refine (expc_apply Lg4 Mx _ b j).trans ?_
  unfold Cert.Row.p
  rw [lg4_at x0 x1 x2 b j, mx_at x0 x1 x2 b]

theorem pw5_at (b : Fin 2) (j : Fin 512) : Pw5 (ix2 b j) = Cert.Row.p (dR x0 b) (eR x1 b) (wM x2) (Cert.Row.pos 5 j) := by
  refine (expc_apply Lg5 Mx _ b j).trans ?_
  unfold Cert.Row.p
  rw [lg5_at x0 x1 x2 b j, mx_at x0 x1 x2 b]

theorem pw6_at (b : Fin 2) (j : Fin 512) : Pw6 (ix2 b j) = Cert.Row.p (dR x0 b) (eR x1 b) (wM x2) (Cert.Row.pos 6 j) := by
  refine (expc_apply Lg6 Mx _ b j).trans ?_
  unfold Cert.Row.p
  rw [lg6_at x0 x1 x2 b j, mx_at x0 x1 x2 b]

theorem pw7_at (b : Fin 2) (j : Fin 512) : Pw7 (ix2 b j) = Cert.Row.p (dR x0 b) (eR x1 b) (wM x2) (Cert.Row.pos 7 j) := by
  refine (expc_apply Lg7 Mx _ b j).trans ?_
  unfold Cert.Row.p
  rw [lg7_at x0 x1 x2 b j, mx_at x0 x1 x2 b]

theorem cs0_at (b : Fin 2) : (∑ j : Fin 512, Pw0 (ix2 b j)) = Cert.Row.csum (dR x0 b) (eR x1 b) (wM x2) 0 :=
  Finset.sum_congr rfl fun j _ => pw0_at x0 x1 x2 b j

theorem cs1_at (b : Fin 2) : (∑ j : Fin 512, Pw1 (ix2 b j)) = Cert.Row.csum (dR x0 b) (eR x1 b) (wM x2) 1 :=
  Finset.sum_congr rfl fun j _ => pw1_at x0 x1 x2 b j

theorem cs2_at (b : Fin 2) : (∑ j : Fin 512, Pw2 (ix2 b j)) = Cert.Row.csum (dR x0 b) (eR x1 b) (wM x2) 2 :=
  Finset.sum_congr rfl fun j _ => pw2_at x0 x1 x2 b j

theorem cs3_at (b : Fin 2) : (∑ j : Fin 512, Pw3 (ix2 b j)) = Cert.Row.csum (dR x0 b) (eR x1 b) (wM x2) 3 :=
  Finset.sum_congr rfl fun j _ => pw3_at x0 x1 x2 b j

theorem cs4_at (b : Fin 2) : (∑ j : Fin 512, Pw4 (ix2 b j)) = Cert.Row.csum (dR x0 b) (eR x1 b) (wM x2) 4 :=
  Finset.sum_congr rfl fun j _ => pw4_at x0 x1 x2 b j

theorem cs5_at (b : Fin 2) : (∑ j : Fin 512, Pw5 (ix2 b j)) = Cert.Row.csum (dR x0 b) (eR x1 b) (wM x2) 5 :=
  Finset.sum_congr rfl fun j _ => pw5_at x0 x1 x2 b j

theorem cs6_at (b : Fin 2) : (∑ j : Fin 512, Pw6 (ix2 b j)) = Cert.Row.csum (dR x0 b) (eR x1 b) (wM x2) 6 :=
  Finset.sum_congr rfl fun j _ => pw6_at x0 x1 x2 b j

theorem cs7_at (b : Fin 2) : (∑ j : Fin 512, Pw7 (ix2 b j)) = Cert.Row.csum (dR x0 b) (eR x1 b) (wM x2) 7 :=
  Finset.sum_congr rfl fun j _ => pw7_at x0 x1 x2 b j

/-- The normaliser after two, five and all eight chunks. -/
theorem n1_at (b : Fin 2) : N1 (ix2 b 0) = 0 + Cert.Row.csum (dR x0 b) (eR x1 b) (wM x2) 0 + Cert.Row.csum (dR x0 b) (eR x1 b) (wM x2) 1 :=
  congrArg₂ (· + ·) (congrArg₂ (· + ·) Ideal.ofBits_zero_f32 ((rsum_apply Pw0 _ _ _ _ b).trans (cs0_at x0 x1 x2 b)))
    ((rsum_apply Pw1 _ _ _ _ b).trans (cs1_at x0 x1 x2 b))

theorem n4_at (b : Fin 2) : N4 (ix2 b 0) = 0 + Cert.Row.csum (dR x0 b) (eR x1 b) (wM x2) 0 + Cert.Row.csum (dR x0 b) (eR x1 b) (wM x2) 1 + Cert.Row.csum (dR x0 b) (eR x1 b) (wM x2) 2
    + Cert.Row.csum (dR x0 b) (eR x1 b) (wM x2) 3 + Cert.Row.csum (dR x0 b) (eR x1 b) (wM x2) 4 :=
  congrArg₂ (· + ·) (congrArg₂ (· + ·) (congrArg₂ (· + ·) (n1_at x0 x1 x2 b) ((rsum_apply Pw2 _ _ _ _ b).trans (cs2_at x0 x1 x2 b)))
    ((rsum_apply Pw3 _ _ _ _ b).trans (cs3_at x0 x1 x2 b))) ((rsum_apply Pw4 _ _ _ _ b).trans (cs4_at x0 x1 x2 b))

theorem n7_at (b : Fin 2) : N7 (ix2 b 0) = Cert.Row.lK (dR x0 b) (eR x1 b) (wM x2) :=
  congrArg₂ (· + ·) (congrArg₂ (· + ·) (congrArg₂ (· + ·) (n4_at x0 x1 x2 b) ((rsum_apply Pw5 _ _ _ _ b).trans (cs5_at x0 x1 x2 b)))
    ((rsum_apply Pw6 _ _ _ _ b).trans (cs6_at x0 x1 x2 b))) ((rsum_apply Pw7 _ _ _ _ b).trans (cs7_at x0 x1 x2 b))

theorem w0_at (b : Fin 2) (e : Fin 512) : (∑ j : Fin 512, Pw0 (ix2 b j) * En0 (ix3 b j e)) = Cert.Row.cw (dR x0 b) (eR x1 b) (wM x2) 0 e :=
  Finset.sum_congr rfl fun j _ => by rw [pw0_at x0 x1 x2 b j, ld_enc0 x1 b j e]

theorem w1_at (b : Fin 2) (e : Fin 512) : (∑ j : Fin 512, Pw1 (ix2 b j) * En1 (ix3 b j e)) = Cert.Row.cw (dR x0 b) (eR x1 b) (wM x2) 1 e :=
  Finset.sum_congr rfl fun j _ => by rw [pw1_at x0 x1 x2 b j, ld_enc1 x1 b j e]

theorem w2_at (b : Fin 2) (e : Fin 512) : (∑ j : Fin 512, Pw2 (ix2 b j) * En2 (ix3 b j e)) = Cert.Row.cw (dR x0 b) (eR x1 b) (wM x2) 2 e :=
  Finset.sum_congr rfl fun j _ => by rw [pw2_at x0 x1 x2 b j, ld_enc2 x1 b j e]

theorem w3_at (b : Fin 2) (e : Fin 512) : (∑ j : Fin 512, Pw3 (ix2 b j) * En3 (ix3 b j e)) = Cert.Row.cw (dR x0 b) (eR x1 b) (wM x2) 3 e :=
  Finset.sum_congr rfl fun j _ => by rw [pw3_at x0 x1 x2 b j, ld_enc3 x1 b j e]

theorem w4_at (b : Fin 2) (e : Fin 512) : (∑ j : Fin 512, Pw4 (ix2 b j) * En4 (ix3 b j e)) = Cert.Row.cw (dR x0 b) (eR x1 b) (wM x2) 4 e :=
  Finset.sum_congr rfl fun j _ => by rw [pw4_at x0 x1 x2 b j, ld_enc4 x1 b j e]

theorem w5_at (b : Fin 2) (e : Fin 512) : (∑ j : Fin 512, Pw5 (ix2 b j) * En5 (ix3 b j e)) = Cert.Row.cw (dR x0 b) (eR x1 b) (wM x2) 5 e :=
  Finset.sum_congr rfl fun j _ => by rw [pw5_at x0 x1 x2 b j, ld_enc5 x1 b j e]

theorem w6_at (b : Fin 2) (e : Fin 512) : (∑ j : Fin 512, Pw6 (ix2 b j) * En6 (ix3 b j e)) = Cert.Row.cw (dR x0 b) (eR x1 b) (wM x2) 6 e :=
  Finset.sum_congr rfl fun j _ => by rw [pw6_at x0 x1 x2 b j, ld_enc6 x1 b j e]

theorem w7_at (b : Fin 2) (e : Fin 512) : (∑ j : Fin 512, Pw7 (ix2 b j) * En7 (ix3 b j e)) = Cert.Row.cw (dR x0 b) (eR x1 b) (wM x2) 7 e :=
  Finset.sum_congr rfl fun j _ => by rw [pw7_at x0 x1 x2 b j, ld_enc7 x1 b j e]

/-- The weighted sum after one, four and all eight chunks. -/
theorem ac0_at (b : Fin 2) (e : Fin 512) : Ac0 (ix2 b e) = 0 + Cert.Row.cw (dR x0 b) (eR x1 b) (wM x2) 0 e :=
  congrArg₂ (· + ·) Ideal.ofBits_zero_f32 ((wsum_apply Pw0 En0 _ _ _ _ b e).trans (w0_at x0 x1 x2 b e))

theorem ac3_at (b : Fin 2) (e : Fin 512) : Ac3 (ix2 b e) = 0 + Cert.Row.cw (dR x0 b) (eR x1 b) (wM x2) 0 e + Cert.Row.cw (dR x0 b) (eR x1 b) (wM x2) 1 e + Cert.Row.cw (dR x0 b) (eR x1 b) (wM x2) 2 e
    + Cert.Row.cw (dR x0 b) (eR x1 b) (wM x2) 3 e :=
  congrArg₂ (· + ·) (congrArg₂ (· + ·) (congrArg₂ (· + ·) (ac0_at x0 x1 x2 b e) ((wsum_apply Pw1 En1 _ _ _ _ b e).trans (w1_at x0 x1 x2 b e)))
    ((wsum_apply Pw2 En2 _ _ _ _ b e).trans (w2_at x0 x1 x2 b e))) ((wsum_apply Pw3 En3 _ _ _ _ b e).trans (w3_at x0 x1 x2 b e))

theorem ac7_at (b : Fin 2) (e : Fin 512) : Ac7 (ix2 b e) = 0 + Cert.Row.cw (dR x0 b) (eR x1 b) (wM x2) 0 e + Cert.Row.cw (dR x0 b) (eR x1 b) (wM x2) 1 e + Cert.Row.cw (dR x0 b) (eR x1 b) (wM x2) 2 e
    + Cert.Row.cw (dR x0 b) (eR x1 b) (wM x2) 3 e + Cert.Row.cw (dR x0 b) (eR x1 b) (wM x2) 4 e + Cert.Row.cw (dR x0 b) (eR x1 b) (wM x2) 5 e + Cert.Row.cw (dR x0 b) (eR x1 b) (wM x2) 6 e + Cert.Row.cw (dR x0 b) (eR x1 b) (wM x2) 7 e :=
  congrArg₂ (· + ·) (congrArg₂ (· + ·) (congrArg₂ (· + ·) (congrArg₂ (· + ·) (ac3_at x0 x1 x2 b e)
    ((wsum_apply Pw4 En4 _ _ _ _ b e).trans (w4_at x0 x1 x2 b e))) ((wsum_apply Pw5 En5 _ _ _ _ b e).trans (w5_at x0 x1 x2 b e)))
    ((wsum_apply Pw6 En6 _ _ _ _ b e).trans (w6_at x0 x1 x2 b e))) ((wsum_apply Pw7 En7 _ _ _ _ b e).trans (w7_at x0 x1 x2 b e))

end Block

/-- Row `b` of the attention block the body stores, at position `s`. -/
theorem blk_attn (x0 : Vec Ideal S2x1x512 .f32) (x1 : Vec Ideal S2x4096x512 .f32) (x2 : Vec Ideal S512x512 .f32)
    (b : Fin 2) (s : Fin 4096) :
    out0_3 (F := Ideal) x0 x1 x2 (ix3 b 0 s)
      = Cert.Row.attnK (fun k => x0 (ix3 b 0 k)) (fun s e => x1 (ix3 b s e)) (fun e k => x2 (ix2 e k)) s := by
  obtain ⟨c, j, rfl⟩ := pos_surj s
  unfold out0_3
  rw [View.canon_unit_zero (S := S2x1x4096) hz3]
  refine (pay2_apply _ _ _ _ _ _ _ _ _ _ b c j).trans ?_
  unfold Cert.Row.attnK
  refine congrArg₂ (· * ·) ?_ (congrArg₂ Ideal.div ofBits_one (n7_at x0 x1 x2 b))
  fin_cases c
  · exact pw0_at x0 x1 x2 b j
  · exact pw1_at x0 x1 x2 b j
  · exact pw2_at x0 x1 x2 b j
  · exact pw3_at x0 x1 x2 b j
  · exact pw4_at x0 x1 x2 b j
  · exact pw5_at x0 x1 x2 b j
  · exact pw6_at x0 x1 x2 b j
  · exact pw7_at x0 x1 x2 b j

/-- Row `b` of the weighted-sum block the body stores, at feature `e`. -/
theorem blk_sum (x0 : Vec Ideal S2x1x512 .f32) (x1 : Vec Ideal S2x4096x512 .f32) (x2 : Vec Ideal S512x512 .f32)
    (b : Fin 2) (e : Fin 512) :
    out0_4 (F := Ideal) x0 x1 x2 (ix3 b 0 e)
      = Cert.Row.sumK (fun k => x0 (ix3 b 0 k)) (fun s e => x1 (ix3 b s e)) (fun e k => x2 (ix2 e k)) e := by
  unfold out0_4
  rw [View.canon_unit_zero (S := S2x1x512) hz3]
  refine (pay3_apply _ _ _ b e).trans ?_
  unfold Cert.Row.sumK
  exact congrArg₂ (· * ·) (ac7_at x0 x1 x2 b e) (congrArg₂ Ideal.div ofBits_one (n7_at x0 x1 x2 b))

end Cert.KernelIdeal.Blk

end
-- ==== Proof.KArray.lean ====
/-
  From blocks to arrays: grid point `t` handles batch rows `2t` and `2t+1`, so the attention array and the
  weighted-sum array after the run are, row by row, the chunked row computation of the argument arrays; the
  program's last host operation drops the unit axis of the weighted sum.
-/
import proofs.«426919_j78829829751023_3_alg».proof.Proof.Gen.KernelIdeal.Frame
import proofs.«426919_j78829829751023_3_alg».proof.Proof.KBlock
import proofs.«426919_j78829829751023_3_alg».proof.Proof.Row
import Idealize.ShloMosaic.Lib.ValueIdx
import Idealize.ShloMosaic.Lib.Pipeline.Value
import Idealize.ShloMosaic.Lib.StableHlo.Run

noncomputable section

namespace Cert.KernelIdeal.Arr

open Idealize.ShloMosaic Idealize.ShloMosaic.TcCoe Idealize.SL.Sem Idealize.ShloMosaic.ValueIdx Cert.KernelIdeal Cert.KernelIdeal.Gen

/-- The attention array as a function of the argument arrays. -/
def attnArr (D : FVec Ideal S64x1x512 .f32) (E : FVec Ideal S64x4096x512 .f32) (Wt : FVec Ideal S512x512 .f32) :
    FVec Ideal S64x1x4096 .f32 := fun i =>
  Cert.Row.attnK (Cert.Row.dRow D ⟨(i 0).val, (i 0).isLt⟩) (Cert.Row.eRow E ⟨(i 0).val, (i 0).isLt⟩) (Cert.Row.wMat Wt)
    ⟨(i 2).val, (i 2).isLt⟩

/-- The weighted-sum array (unit axis dropped) as a function of the argument arrays. -/
def sumArr (D : FVec Ideal S64x1x512 .f32) (E : FVec Ideal S64x4096x512 .f32) (Wt : FVec Ideal S512x512 .f32) :
    FVec Ideal S64x512 .f32 := fun i =>
  Cert.Row.sumK (Cert.Row.dRow D ⟨(i 0).val, (i 0).isLt⟩) (Cert.Row.eRow E ⟨(i 0).val, (i 0).isLt⟩) (Cert.Row.wMat Wt)
    ⟨(i 1).val, (i 1).isLt⟩

/-! ## The blocks of one grid point -/

/-- The weighted-sum array with its unit axis kept: what the pipeline's second output array holds. -/
def sumArr3 (D : FVec Ideal S64x1x512 .f32) (E : FVec Ideal S64x4096x512 .f32) (Wt : FVec Ideal S512x512 .f32) :
    FVec Ideal S64x1x512 .f32 := fun i =>
  Cert.Row.sumK (Cert.Row.dRow D ⟨(i 0).val, (i 0).isLt⟩) (Cert.Row.eRow E ⟨(i 0).val, (i 0).isLt⟩) (Cert.Row.wMat Wt)
    ⟨(i 2).val, (i 2).isLt⟩

/-- The block index maps over the grid: on the batch axis every blocked window sits at block `t`, on every other
    axis at block `0`; the weight matrix is one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem lt_N (t : Fin cfg0.N) : t.val < 32 := Nat.lt_of_lt_of_eq t.isLt N_0

/-- Batch row `2t + b`, the row of the arrays that row `b` of point `t`'s blocks is. -/
abbrev rowOf (t : Fin cfg0.N) (b : Fin 2) : Fin 64 := ⟨2 * t.val + b.val, by have := lt_N t; have := b.isLt; omega⟩

section Blocks

variable (m : (ℓ : Loc nD τ sig) → Buf (Elt Ideal) ℓ)

/-- Row `b` of the decoder block at point `t` is row `2t + b` of the decoder array. -/
theorem iblk0_apply (c : Dev nD) (t : Fin cfg0.N) (b : Fin 2) (k : Fin 512) :
    (iblk m c 0 t : Vec Ideal S2x1x512 .f32) (ix3 b 0 k)
      = (V m c main_arg0 : S64x1x512.Idx → EReal) (ix3 (rowOf t b) 0 k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 2 + 1 * b.val = 2 * t.val + b.val; omega
  | ⟨1, _⟩ => show win0_0.index t (1 : Fin 3) * 1 + 1 * (0 : Fin 1).val = (0 : Fin 1).val; omega
  | ⟨2, _⟩ => show win0_0.index t (2 : Fin 3) * 512 + 1 * k.val = k.val; omega

/-- Slab `b` of the encoder block at point `t` is slab `2t + b` of the encoder array. -/
theorem iblk1_apply (c : Dev nD) (t : Fin cfg0.N) (b : Fin 2) (s : Fin 4096) (e : Fin 512) :
    (iblk m c 1 t : Vec Ideal S2x4096x512 .f32) (ix3 b s e)
      = (V m c main_arg1 : S64x4096x512.Idx → EReal) (ix3 (rowOf t b) s e) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 2 + 1 * b.val = 2 * t.val + b.val; omega
  | ⟨1, _⟩ => show win0_1.index t (1 : Fin 3) * 4096 + 1 * s.val = s.val; omega
  | ⟨2, _⟩ => show win0_1.index t (2 : Fin 3) * 512 + 1 * e.val = e.val; omega

/-- The weight block at any point is the weight matrix. -/
theorem iblk2_apply (c : Dev nD) (t : Fin cfg0.N) (e : Fin 512) (k : Fin 512) :
    (iblk m c 2 t : Vec Ideal S512x512 .f32) (ix2 e k)
      = (V m c main_arg2 : S512x512.Idx → EReal) (ix2 e k) := by
  obtain ⟨-, -, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 512 + 1 * e.val = e.val; omega
  | ⟨1, _⟩ => show win0_2.index t (1 : Fin 2) * 512 + 1 * k.val = k.val; omega

end Blocks

/-! ## What a point writes back -/

section Flushed

variable (m : (ℓ : Loc nD τ sig) → Buf (Elt Ideal) ℓ)

/-- The attention array of the arguments as the region finds them. -/
abbrev G3 (c : Dev nD) : S64x1x4096.Idx → EReal :=
  attnArr (V m c main_arg0) (V m c main_arg1) (V m c main_arg2)

/-- The weighted-sum array, unit axis kept, of the arguments as the region finds them. -/
abbrev G4 (c : Dev nD) : S64x1x512.Idx → EReal :=
  sumArr3 (V m c main_arg0) (V m c main_arg1) (V m c main_arg2)

/-- Row `b` of the attention block a point leaves is row `2t + b` of the attention array: the block's row
    computation on the point's input blocks, each read as rows of its array. -/
theorem out3_at (c : Dev nD) (t : Fin cfg0.N) (b : Fin 2) (s : Fin 4096) :
    out0_3 (F := Ideal) (iblk m c 0 t) (iblk m c 1 t) (iblk m c 2 t) (ix3 b 0 s) = G3 m c (ix3 (rowOf t b) 0 s) := by
  refine (Cert.KernelIdeal.Blk.blk_attn (iblk m c 0 t) (iblk m c 1 t) (iblk m c 2 t) b s).trans ?_
  have e0 : (fun k => (iblk m c 0 t : Vec Ideal S2x1x512 .f32) (ix3 b 0 k))
      = Cert.Row.dRow (V m c main_arg0) (rowOf t b) := funext fun k => iblk0_apply m c t b k
  have e1 : (fun s e => (iblk m c 1 t : Vec Ideal S2x4096x512 .f32) (ix3 b s e))
      = Cert.Row.eRow (V m c main_arg1) (rowOf t b) := funext fun s => funext fun e => iblk1_apply m c t b s e
  have e2 : (fun e k => (iblk m c 2 t : Vec Ideal S512x512 .f32) (ix2 e k))
      = Cert.Row.wMat (V m c main_arg2) := funext fun e => funext fun k => iblk2_apply m c t e k
  rw [e0, e1, e2]
  rfl

/-- Row `b` of the weighted-sum block a point leaves is row `2t + b` of the weighted-sum array. -/
theorem out4_at (c : Dev nD) (t : Fin cfg0.N) (b : Fin 2) (e : Fin 512) :
    out0_4 (F := Ideal) (iblk m c 0 t) (iblk m c 1 t) (iblk m c 2 t) (ix3 b 0 e) = G4 m c (ix3 (rowOf t b) 0 e) := by
  refine (Cert.KernelIdeal.Blk.blk_sum (iblk m c 0 t) (iblk m c 1 t) (iblk m c 2 t) b e).trans ?_
  have e0 : (fun k => (iblk m c 0 t : Vec Ideal S2x1x512 .f32) (ix3 b 0 k))
      = Cert.Row.dRow (V m c main_arg0) (rowOf t b) := funext fun k => iblk0_apply m c t b k
  have e1 : (fun s e => (iblk m c 1 t : Vec Ideal S2x4096x512 .f32) (ix3 b s e))
      = Cert.Row.eRow (V m c main_arg1) (rowOf t b) := funext fun s => funext fun e => iblk1_apply m c t b s e
  have e2 : (fun e k => (iblk m c 2 t : Vec Ideal S512x512 .f32) (ix2 e k))
      = Cert.Row.wMat (V m c main_arg2) := funext fun e => funext fun k => iblk2_apply m c t e k
  rw [e0, e1, e2]
  rfl

/-- Where entry `(b, 0, s)` of point `t`'s attention block lies in the array. -/
theorem emb3 (t : Fin cfg0.N) (b : Fin 2) (s : Fin 4096) :
    (((cfg0.win 3).blk t).view.emb (ix3 b 0 s) : S64x1x4096.Idx) = ix3 (rowOf t b) 0 s := by
  obtain ⟨-, -, -, -, -, -, -, -, e0, e1, e2, -⟩ := idx_facts t
  funext a
  apply Fin.ext
  match a with
  | ⟨0, _⟩ => show win0_3.index t (0 : Fin 3) * 2 + 1 * b.val = 2 * t.val + b.val; omega
  | ⟨1, _⟩ => show win0_3.index t (1 : Fin 3) * 1 + 1 * (0 : Fin 1).val = (0 : Fin 1).val; omega
  | ⟨2, _⟩ => show win0_3.index t (2 : Fin 3) * 4096 + 1 * s.val = s.val; omega

/-- Where entry `(b, 0, e)` of point `t`'s weighted-sum block lies in the array. -/
theorem emb4 (t : Fin cfg0.N) (b : Fin 2) (e : Fin 512) :
    (((cfg0.win 4).blk t).view.emb (ix3 b 0 e) : S64x1x512.Idx) = ix3 (rowOf t b) 0 e := by
  obtain ⟨-, -, -, -, -, -, -, -, -, -, -, e0, e1, e2⟩ := idx_facts t
  funext a
  apply Fin.ext
  match a with
  | ⟨0, _⟩ => show win0_4.index t (0 : Fin 3) * 2 + 1 * b.val = 2 * t.val + b.val; omega
  | ⟨1, _⟩ => show win0_4.index t (1 : Fin 3) * 1 + 1 * (0 : Fin 1).val = (0 : Fin 1).val; omega
  | ⟨2, _⟩ => show win0_4.index t (2 : Fin 3) * 512 + 1 * e.val = e.val; omega

/-- The attention block a point leaves, entry by entry, is the attention array where the block lies. -/
theorem block3_at (c : Dev nD) (t : Fin cfg0.N) (y : S2x1x4096.Idx) :
    out0_3 (F := Ideal) (iblk m c 0 t) (iblk m c 1 t) (iblk m c 2 t) y = G3 m c (((cfg0.win 3).blk t).view.emb y) := by
  obtain ⟨b, z, s, rfl⟩ : ∃ (b : Fin 2) (z : Fin 1) (s : Fin 4096), y = ix3 b z s := ⟨y 0, y 1, y 2, eq_ix3 y⟩
  obtain rfl : z = 0 := Subsingleton.elim _ _
  exact (out3_at m c t b s).trans (congrArg (G3 m c) (emb3 t b s)).symm

/-- The weighted-sum block a point leaves, entry by entry, is the weighted-sum array where the block lies. -/
theorem block4_at (c : Dev nD) (t : Fin cfg0.N) (y : S2x1x512.Idx) :
    out0_4 (F := Ideal) (iblk m c 0 t) (iblk m c 1 t) (iblk m c 2 t) y = G4 m c (((cfg0.win 4).blk t).view.emb y) := by
  obtain ⟨b, z, e, rfl⟩ : ∃ (b : Fin 2) (z : Fin 1) (e : Fin 512), y = ix3 b z e := ⟨y 0, y 1, y 2, eq_ix3 y⟩
  obtain rfl : z = 0 := Subsingleton.elim _ _
  exact (out4_at m c t b e).trans (congrArg (G4 m c) (emb4 t b e)).symm

/-- What point `t` writes back to the attention array is block `t` of the attention array of the arguments. -/
theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  funext y
  rw [View.read_apply]
  exact block3_at m c t y

/-- What point `t` writes back to the weighted-sum array is block `t` of the weighted-sum array of the arguments. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  funext y
  rw [View.read_apply]
  exact block4_at m c t y

end Flushed

/-! ## The blocks cover the arrays -/

/-- An index of the attention array is in point `t`'s block iff each coordinate is in the block's range on its axis. -/
theorem mem_blk3 (t : Fin cfg0.N) (i : S64x1x4096.Idx) :
    i ∈ ((cfg0.win 3).blk t).view.set ↔ ∀ a : Fin 3, win0_3.index t a * S2x1x4096.size a ≤ (i a).val ∧ (i a).val < win0_3.index t a * S2x1x4096.size a + S2x1x4096.size a := by
  show i ∈ ((View.whole main_v0_0).slice (win0_3.rect t)).set ↔ _
  rw [View.set_slice_whole, Rect.mem_set_unit]
  exact Iff.rfl

/-- An index of the weighted-sum array is in point `t`'s block iff each coordinate is in the block's range on its axis. -/
theorem mem_blk4 (t : Fin cfg0.N) (i : S64x1x512.Idx) :
    i ∈ ((cfg0.win 4).blk t).view.set ↔ ∀ a : Fin 3, win0_4.index t a * S2x1x512.size a ≤ (i a).val ∧ (i a).val < win0_4.index t a * S2x1x512.size a + S2x1x512.size a := by
  show i ∈ ((View.whole main_v0_1).slice (win0_4.rect t)).set ↔ _
  rw [View.set_slice_whole, Rect.mem_set_unit]
  exact Iff.rfl

/-- Row `r` of the attention array is written back by point `r / 2`. -/
theorem cover3 (i : S64x1x4096.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 4096 := (i 2).isLt
  have hN : (i 0).val / 2 < cfg0.N := Nat.lt_of_lt_of_eq (by omega : (i 0).val / 2 < 32) N_0.symm
  refine ⟨⟨(i 0).val / 2, hN⟩, flush0_3 _, ?_⟩
  obtain ⟨-, -, -, -, -, -, -, -, e0, e1, e2, -⟩ := idx_facts ⟨(i 0).val / 2, hN⟩
  have e0' : win0_3.index ⟨(i 0).val / 2, hN⟩ (0 : Fin 3) = (i 0).val / 2 := e0
  rw [mem_blk3]
  intro a
  match a with
  | ⟨0, _⟩ => show win0_3.index ⟨(i 0).val / 2, hN⟩ (0 : Fin 3) * 2 ≤ (i 0).val ∧ (i 0).val < win0_3.index ⟨(i 0).val / 2, hN⟩ (0 : Fin 3) * 2 + 2; omega
  | ⟨1, _⟩ => show win0_3.index ⟨(i 0).val / 2, hN⟩ (1 : Fin 3) * 1 ≤ (i 1).val ∧ (i 1).val < win0_3.index ⟨(i 0).val / 2, hN⟩ (1 : Fin 3) * 1 + 1; omega
  | ⟨2, _⟩ => show win0_3.index ⟨(i 0).val / 2, hN⟩ (2 : Fin 3) * 4096 ≤ (i 2).val ∧ (i 2).val < win0_3.index ⟨(i 0).val / 2, hN⟩ (2 : Fin 3) * 4096 + 4096; omega

/-- Row `r` of the weighted-sum array is written back by point `r / 2`. -/
theorem cover4 (i : S64x1x512.Idx) :
    ∃ t : Fin cfg0.N, (cfg0.win 4).flush t = true ∧ i ∈ ((cfg0.win 4).blk t).view.set := by
  have hi0 : (i 0).val < 64 := (i 0).isLt
  have hi1 : (i 1).val < 1 := (i 1).isLt
  have hi2 : (i 2).val < 512 := (i 2).isLt
  have hN : (i 0).val / 2 < cfg0.N := Nat.lt_of_lt_of_eq (by omega : (i 0).val / 2 < 32) N_0.symm
  refine ⟨⟨(i 0).val / 2, hN⟩, flush0_4 _, ?_⟩
  obtain ⟨-, -, -, -, -, -, -, -, -, -, -, e0, e1, e2⟩ := idx_facts ⟨(i 0).val / 2, hN⟩
  have e0' : win0_4.index ⟨(i 0).val / 2, hN⟩ (0 : Fin 3) = (i 0).val / 2 := e0
  rw [mem_blk4]
  intro a
  match a with
  | ⟨0, _⟩ => show win0_4.index ⟨(i 0).val / 2, hN⟩ (0 : Fin 3) * 2 ≤ (i 0).val ∧ (i 0).val < win0_4.index ⟨(i 0).val / 2, hN⟩ (0 : Fin 3) * 2 + 2; omega
  | ⟨1, _⟩ => show win0_4.index ⟨(i 0).val / 2, hN⟩ (1 : Fin 3) * 1 ≤ (i 1).val ∧ (i 1).val < win0_4.index ⟨(i 0).val / 2, hN⟩ (1 : Fin 3) * 1 + 1; omega
  | ⟨2, _⟩ => show win0_4.index ⟨(i 0).val / 2, hN⟩ (2 : Fin 3) * 512 ≤ (i 2).val ∧ (i 2).val < win0_4.index ⟨(i 0).val / 2, hN⟩ (2 : Fin 3) * 512 + 512; omega

/-! ## The arrays after the region, and the result of the host operation after it -/

section Final

variable (m : (ℓ : Loc nD τ sig) → Buf (Elt Ideal) ℓ)

/-- The attention array after the last point. -/
theorem final3 (c : Dev nD) : (dats m 0 c).arrAt 3 cfg0.N = G3 m c :=
  (dats m 0 c).arrAt_eq_of_cover 3 (G3 m c) (fun t _ => flushed3_eq m c t) cover3

/-- The weighted-sum array, unit axis kept, after the last point. -/
theorem final4 (c : Dev nD) : (dats m 0 c).arrAt 4 cfg0.N = G4 m c :=
  (dats m 0 c).arrAt_eq_of_cover 4 (G4 m c) (fun t _ => flushed4_eq m c t) cover4

/-- Dropping the unit axis: entry `(r, e)` of the reshaped array is entry `(r, 0, e)` of the array. -/
theorem drop_unit (D : FVec Ideal S64x1x512 .f32) (E : FVec Ideal S64x4096x512 .f32) (Wt : FVec Ideal S512x512 .f32) :
    shapeCast S64x512 (sumArr3 D E Wt) shapeCasts_S64x1x512_S64x512 = sumArr D E Wt := by
  funext i
  obtain ⟨r, e, rfl⟩ : ∃ (r : Fin 64) (e : Fin 512), i = ix2 r e := ⟨i 0, i 1, eq_ix2 i⟩
  refine (shapeCast_apply (sumArr3 D E Wt) shapeCasts_S64x1x512_S64x512 (ix2 r e) (ix3 r 0 e) ?_).trans rfl
  rw [Shape.rowMajor_val_three, Shape.rowMajor_val_two]
  show (r.val * 1 + (0 : Fin 1).val) * 512 + e.val = r.val * 512 + e.val
  omega

/-- The host operation after the region leaves the weighted-sum array with its unit axis dropped. -/
theorem tail1 (c : Dev nD) :
    Pipeline.afterTail₀ cfgs (dats m) 0 (V0 m) [hostOps1] c main_v1
      = sumArr (V m c main_arg0) (V m c main_arg1) (V m c main_arg2) := by
  unfold Pipeline.afterTail₀
  show StableHlo.after hostOps1 _ (Proc.devRef .tc main_v1) = _
  after_results
  have e4 : (Pipeline.withArrays (cfgs 0).spec c (V0 m c) (fun w => (dats m 0 c).arrAt w (cfgs 0).N) (Proc.devRef .tc main_v0_1)
      : S64x1x512.Idx → EReal) = G4 m c :=
    (Pipeline.withArrays_arr spec0 launch0.win.arr_inj c _ _ 4).trans (final4 m c)
  exact (congrArg (fun x : S64x1x512.Idx → EReal => shapeCast S64x512 x shapeCasts_S64x1x512_S64x512) e4).trans
    (drop_unit (V m c main_arg0) (V m c main_arg1) (V m c main_arg2))

end Final

/-- The idealized kernel's run with both results named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0)
          = attnArr (m ((c.tc : Thread nD τ).loc main_arg0)) (m ((c.tc : Thread nD τ).loc main_arg1)) (m ((c.tc : Thread nD τ).loc main_arg2))
      ∧ r.2.mem ((c.tc : Thread nD τ).loc main_v1)
          = sumArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_, ?_⟩) (run_main (F := Ideal) m ρ)
  · exact ((h c).1 3).trans (final3 m c)
  · exact ((h c).2 main_v1 (Pipeline.mem_restRefs_of main_v1 (by decide) (by decide))).trans (tail1 m c)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

end Cert.KernelIdeal.Arr

end
-- ==== Proof.RefRows.lean ====
/-
  The reference, read row by row: its attention result and its weighted sum at an index are the plain row
  computation of `Cert.Row` (maximum, exponentials, one sum, a quotient, one contraction).
-/
import proofs.«426919_j78829829751023_3_alg».proof.Proof.Gen.ReferenceIdeal.Read
import proofs.«426919_j78829829751023_3_alg».proof.Proof.Row
import Idealize.ShloMosaic.Lib.ValueIdx
import Idealize.ShloMosaic.PureOps.Ideal.Laws

noncomputable section

open scoped BigOperators

namespace Cert.ReferenceIdeal.Rows

open Idealize.ShloMosaic Idealize.ShloMosaic.ValueIdx Cert.ReferenceIdeal Cert.ReferenceIdeal.Read

/-! ## The index maps of the reference's operations at a row's indices -/

private theorem lidx_v0 (B : Fin 64) (e k : Fin 512) : lidx_main_v0 (ix3 B 0 e) k = ix3 B 0 k :=
  funext fun a => Fin.ext (by match a with | ⟨0, _⟩ => rfl | ⟨1, _⟩ => rfl | ⟨2, _⟩ => rfl)
private theorem ridx_v0 (B : Fin 64) (e k : Fin 512) : ridx_main_v0 (ix3 B 0 e) k = ix2 e k :=
  funext fun a => Fin.ext (by match a with | ⟨0, _⟩ => rfl | ⟨1, _⟩ => rfl)
private theorem lidx_v1 (B : Fin 64) (s : Fin 4096) (k : Fin 512) : lidx_main_v1 (ix3 B 0 s) k = ix3 B 0 k :=
  funext fun a => Fin.ext (by match a with | ⟨0, _⟩ => rfl | ⟨1, _⟩ => rfl | ⟨2, _⟩ => rfl)
private theorem ridx_v1 (B : Fin 64) (s : Fin 4096) (k : Fin 512) : ridx_main_v1 (ix3 B 0 s) k = ix3 B s k :=
  funext fun a => Fin.ext (by match a with | ⟨0, _⟩ => rfl | ⟨1, _⟩ => rfl | ⟨2, _⟩ => rfl)
private theorem idx_v56 (B : Fin 64) (s : Fin 4096) : idx_main_v5 (idx_main_v6 (ix3 B 0 s)) = ix2 B 0 :=
  funext fun a => Fin.ext (by match a with | ⟨0, _⟩ => rfl | ⟨1, _⟩ => rfl)
private theorem idx_v1011 (B : Fin 64) (s : Fin 4096) : idx_main_v10 (idx_main_v11 (ix3 B 0 s)) = ix2 B 0 :=
  funext fun a => Fin.ext (by match a with | ⟨0, _⟩ => rfl | ⟨1, _⟩ => rfl)
private theorem idx_v9 (B : Fin 64) (k : Fin 4096) : idx_main_v9 (ix2 B 0) k = ix3 B 0 k :=
  funext fun a => Fin.ext (by match a with | ⟨0, _⟩ => rfl | ⟨1, _⟩ => rfl | ⟨2, _⟩ => rfl)
private theorem lidx_v13 (B : Fin 64) (e : Fin 512) (k : Fin 4096) : lidx_main_v13 (ix3 B 0 e) k = ix3 B 0 k :=
  funext fun a => Fin.ext (by match a with | ⟨0, _⟩ => rfl | ⟨1, _⟩ => rfl | ⟨2, _⟩ => rfl)
private theorem ridx_v13 (B : Fin 64) (e : Fin 512) (k : Fin 4096) : ridx_main_v13 (ix3 B 0 e) k = ix3 B k e :=
  funext fun a => Fin.ext (by match a with | ⟨0, _⟩ => rfl | ⟨1, _⟩ => rfl | ⟨2, _⟩ => rfl)
/-- Row B, feature e of the flat result is (B, 0, e) of the contraction: (512 B + e) / 512 = B and
    (512 B + e) % 512 = e. -/
private theorem idx_v14 (B : Fin 64) (e : Fin 512) : idx_main_v14 (ix2 B e) = ix3 B 0 e :=
  funext fun a => Fin.ext (by
    have hB := B.isLt; have he := e.isLt
    match a with
    | ⟨0, _⟩ => show (B.val * 512 + e.val) / 512 = B.val; omega
    | ⟨1, _⟩ => rfl
    | ⟨2, _⟩ => show (B.val * 512 + e.val) % 512 = e.val; omega)
/-- The reduced index (B, 0) with position k put back on the last axis is (B, 0, k). -/
private theorem lift_v2 (h : S64x1x4096.Reduces [2] S64x1) (B : Fin 64) (k : Fin (S64x1x4096.size 2)) :
    h.lift (ix2 B 0) k = ix3 B 0 (⟨k.val, k.isLt⟩ : Fin 4096) := by
  funext c; apply Fin.ext
  match c with | ⟨0, _⟩ => rfl | ⟨1, _⟩ => rfl | ⟨2, _⟩ => rfl

/-- The pattern of −∞ is the bottom of the extended reals. -/
private theorem ofBits_neg_inf : Ideal.ofBits .f32 0xFF800000#32 = (⊥ : EReal) := by
  simp [Ideal.ofBits, Ideal.ieee]

section
variable (D : (⟨S64x1x512, .f32⟩ : BufTy).Contents (Elt Ideal)) (E : (⟨S64x4096x512, .f32⟩ : BufTy).Contents (Elt Ideal))
  (Wt : (⟨S512x512, .f32⟩ : BufTy).Contents (Elt Ideal)) (B : Fin 64)

/-- The first contraction is the projected decoder vector. -/
theorem ref_sub (e : Fin 512) :
    val_main_v0 (F := Ideal) D Wt (ix3 B 0 e) = Cert.Row.sub (Cert.Row.dRow D B) (Cert.Row.wMat Wt) e := by
  rw [val_main_v0_apply]
  unfold Cert.Row.sub
  refine Finset.sum_congr rfl fun k _ => ?_
  rw [lidx_v0, ridx_v0]

/-- The second contraction is the score. -/
theorem ref_logit (s : Fin 4096) :
    val_main_v1 (F := Ideal) D E Wt (ix3 B 0 s)
      = Cert.Row.logit (Cert.Row.dRow D B) (Cert.Row.eRow E B) (Cert.Row.wMat Wt) s := by
  rw [val_main_v1_apply]
  unfold Cert.Row.logit
  refine Finset.sum_congr rfl fun k _ => ?_
  rw [lidx_v1, ridx_v1, ref_sub]

/-- The maximum over the positions, from −∞, then joined with −∞ once more, is the largest score. -/
theorem ref_mx :
    val_main_v4 (F := Ideal) D E Wt (ix2 B 0)
      = Cert.Row.mx (Cert.Row.dRow D B) (Cert.Row.eRow E B) (Cert.Row.wMat Wt) := by
  have h : S64x1x4096.Reduces [2] S64x1 := by decide
  rw [val_main_v4_apply, val_main_v3_apply, val_main_cst_0_apply]
  unfold val_main_v2
  rw [Host.reduce_eq_fold_single FloatOps.maximumf _ _ _ h]
  rw [val_main_cst_apply]
  have hf : (val_main_v1 (F := Ideal) D E Wt ∘ h.lift (ix2 B 0))
      = fun k : Fin 4096 => Cert.Row.logit (Cert.Row.dRow D B) (Cert.Row.eRow E B) (Cert.Row.wMat Wt) k :=
    funext fun k => (congrArg (val_main_v1 (F := Ideal) D E Wt) (lift_v2 h B k)).trans (ref_logit D E Wt B _)
  show max (Ideal.ofBits .f32 0xFF800000#32) (Finset.fold max (Ideal.ofBits .f32 0xFF800000#32) _ Finset.univ) = _
  rw [ofBits_neg_inf, max_bot_left]
  unfold Cert.Row.mx
  exact congrArg (fun f => Finset.fold max (⊥ : EReal) f (Finset.univ : Finset (Fin 4096))) hf

/-- The broadcast maximum, read at any position of the row. -/
theorem ref_v6 (s : Fin 4096) :
    val_main_v6 (F := Ideal) D E Wt (ix3 B 0 s)
      = Cert.Row.mx (Cert.Row.dRow D B) (Cert.Row.eRow E B) (Cert.Row.wMat Wt) := by
  rw [val_main_v6_apply, val_main_v5_apply, idx_v56, ref_mx]

/-- The exponential of the shifted score is the unnormalised weight. -/
theorem ref_p (s : Fin 4096) :
    val_main_v8 (F := Ideal) D E Wt (ix3 B 0 s)
      = Cert.Row.p (Cert.Row.dRow D B) (Cert.Row.eRow E B) (Cert.Row.wMat Wt) s := by
  rw [val_main_v8_apply, val_main_v7_apply, ref_logit, ref_v6]
  rfl

/-- The sum of the weights over the positions, from zero, is the normaliser. -/
theorem ref_l :
    val_main_v9 (F := Ideal) D E Wt (ix2 B 0)
      = Cert.Row.lR (Cert.Row.dRow D B) (Cert.Row.eRow E B) (Cert.Row.wMat Wt) := by
  rw [val_main_v9_apply, val_main_cst_1_apply]
  show Ideal.ofBits .f32 0x00000000#32 + _ = _
  rw [Ideal.ofBits_zero_f32]
  unfold Cert.Row.lR
  refine congrArg (0 + ·) (Finset.sum_congr rfl fun k _ => ?_)
  rw [idx_v9, ref_p]

/-- The broadcast normaliser, read at any position of the row. -/
theorem ref_v11 (s : Fin 4096) :
    val_main_v11 (F := Ideal) D E Wt (ix3 B 0 s)
      = Cert.Row.lR (Cert.Row.dRow D B) (Cert.Row.eRow E B) (Cert.Row.wMat Wt) := by
  rw [val_main_v11_apply, val_main_v10_apply, idx_v1011, ref_l]

end

/-- The reference's attention result at row `B`, position `s`. -/
theorem ref_attn (D : (⟨S64x1x512, .f32⟩ : BufTy).Contents (Elt Ideal)) (E : (⟨S64x4096x512, .f32⟩ : BufTy).Contents (Elt Ideal))
    (Wt : (⟨S512x512, .f32⟩ : BufTy).Contents (Elt Ideal)) (B : Fin 64) (s : Fin 4096) :
    val_main_v12 (F := Ideal) D E Wt (ix3 B 0 s)
      = Cert.Row.attnR (Cert.Row.dRow D B) (Cert.Row.eRow E B) (Cert.Row.wMat Wt) s := by
  rw [val_main_v12_apply, ref_p, ref_v11]
  rfl

/-- The reference's weighted sum at row `B`, feature `e`. -/
theorem ref_sum (D : (⟨S64x1x512, .f32⟩ : BufTy).Contents (Elt Ideal)) (E : (⟨S64x4096x512, .f32⟩ : BufTy).Contents (Elt Ideal))
    (Wt : (⟨S512x512, .f32⟩ : BufTy).Contents (Elt Ideal)) (B : Fin 64) (e : Fin 512) :
    val_main_v14 (F := Ideal) D E Wt (ix2 B e)
      = Cert.Row.sumR (Cert.Row.dRow D B) (Cert.Row.eRow E B) (Cert.Row.wMat Wt) e := by
  rw [val_main_v14_apply, idx_v14, val_main_v13_apply]
  unfold Cert.Row.sumR
  refine Finset.sum_congr rfl fun k _ => ?_
  rw [lidx_v13, ridx_v13, ref_attn]

end Cert.ReferenceIdeal.Rows

end
-- ==== Proof.Finite.lean ====
/-
  The precondition read back: when the finiteness predicate is all ones, every entry of the three argument arrays
  is a real number.
-/
import proofs.«426919_j78829829751023_3_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

/-- The rank-zero shape has exactly one index. -/
instance subsingleton_scalar_idx : Subsingleton S_.Idx := ⟨fun a b => funext fun d => d.elim0⟩

/-- The f32 pattern with all exponent bits set and no fraction bit denotes the top of the extended reals. -/
theorem ofBits_inf : Ideal.ofBits .f32 0x7F800000#32 = ⊤ := by simp [Ideal.ofBits, Ideal.ieee]

/-- One value: the comparison bit of `|x| < +∞` being one leaves only the real values of `x`, since `max x (-x)`
    is `⊤` at both infinities. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  unfold Ideal.cmp at h
  have hlt : max (x : EReal) (-(x : EReal)) < ⊤ := by
    by_contra hn
    simp [hn] at h
  induction x using EReal.rec with
  | bot => simp at hlt
  | top => simp at hlt
  | coe r => exact ⟨r, rfl⟩

/-- One array of any shape: when the conjunction over all axes of the bits `|X i| < +∞` (compared against the
    broadcast scalar `+∞`) is one, every entry of `X` is real. -/
theorem all_real_of_reduce {s : Shape} {axes : List (Fin s.rank)} (X : FVec Ideal s .f32)
    (hb : S_.BroadcastsInDim s (![] : Fin 0 → Fin s.rank)) (hr : s.ReducesTo axes S_) (hu : 0 < S_.numel)
    (e : Host.reduce IntOp.andi
          (cmpf .olt (Host.absf X) (broadcastInDim s ![] hb (constant (F := Ideal) S_ .f32 0x7F800000#32)))
          (constantI S_ 1 1#1) hr hu ix0 = 1#1) :
    ∀ i, ∃ r : ℝ, X i = (r : EReal) := by
  intro i
  have hi := Host.reduce_andi_all _ _ hr hu ix0 e i
  exact real_of_abs_lt_inf (X i) hi

/-- Every entry of every argument array is real when the precondition holds. -/
theorem finite_of_pre (D : FVec Ideal S64x1x512 .f32) (E : FVec Ideal S64x4096x512 .f32) (Wt : FVec Ideal S512x512 .f32)
    (h : Cert.Pre_finite_inputs.fn (F := Ideal) D E Wt = fun _ => 1#1) :
    (∀ i, ∃ r : ℝ, D i = (r : EReal)) ∧ (∀ i, ∃ r : ℝ, E i = (r : EReal)) ∧ (∀ i, ∃ r : ℝ, Wt i = (r : EReal)) := by
  have h0 := congrFun h ix0
  dsimp only [Cert.Pre_finite_inputs.fn] at h0
  -- the result bit is the conjunction of the three arrays' bits
  obtain ⟨h12, h3⟩ := IntOp.andi_eq_one.1 h0
  obtain ⟨h1, h2⟩ := IntOp.andi_eq_one.1 h12
  exact ⟨all_real_of_reduce D _ _ _ h1, all_real_of_reduce E _ _ _ h2, all_real_of_reduce Wt _ _ _ h3⟩

end Cert.Finite

end
-- ==== Proof.lean ====
/-
  Attention over one query per batch row: scores of a projected decoder vector against 4096 encoder positions, a
  softmax over the positions, and the weighted sum of the encoder rows.

  The kernel handles two batch rows per grid point and walks the positions in eight chunks of 512; it normalises by
  multiplying with the reciprocal of the chunk-wise accumulated sum, and scales the weighted sum once at the end.
  The reference subtracts the maximum, exponentiates, divides by the total and then contracts with the encoder.
  Row by row the two are the functions `Cert.Row.attnK` / `sumK` and `Cert.Row.attnR` / `sumR`; on finite inputs all
  intermediate values are real and the normaliser is at least one, so they agree by distributivity in ℝ
  (`Cert.Row.attn_eq`, `Cert.Row.sum_eq`).  The precondition supplies the finiteness (`Cert.Finite.finite_of_pre`).
-/
import proofs.«426919_j78829829751023_3_alg».proof.Defs
import proofs.«426919_j78829829751023_3_alg».proof.Proof.Gen.Kernel
import proofs.«426919_j78829829751023_3_alg».proof.Proof.Gen.Kernel.Frame
import proofs.«426919_j78829829751023_3_alg».proof.Proof.Gen.KernelIdeal
import proofs.«426919_j78829829751023_3_alg».proof.Proof.Gen.KernelIdeal.Frame
import proofs.«426919_j78829829751023_3_alg».proof.Proof.Gen.ReferenceIdeal
import proofs.«426919_j78829829751023_3_alg».proof.Proof.Gen.Pre_finite_inputs
import proofs.«426919_j78829829751023_3_alg».proof.Proof.Gen.ReferenceIdeal.Run
import proofs.«426919_j78829829751023_3_alg».proof.Proof.Gen.ReferenceIdeal.Read
import proofs.«426919_j78829829751023_3_alg».proof.Proof.Row
import proofs.«426919_j78829829751023_3_alg».proof.Proof.KArray
import proofs.«426919_j78829829751023_3_alg».proof.Proof.RefRows
import proofs.«426919_j78829829751023_3_alg».proof.Proof.Finite
import Idealize.ShloMosaic.Lib.ValueIdx

noncomputable section

namespace Cert.Proof

open Idealize.ShloMosaic Idealize.ShloMosaic.TcCoe Idealize.SL.Sem Idealize.ShloMosaic.ValueIdx

/-- Under finiteness the kernel's attention array is the reference's attention stage, index by index. -/
theorem attn_bridge (D : FVec Ideal Cert.KernelIdeal.S64x1x512 .f32) (E : FVec Ideal Cert.KernelIdeal.S64x4096x512 .f32)
    (Wt : FVec Ideal Cert.KernelIdeal.S512x512 .f32)
    (hfin : (∀ i, ∃ r : ℝ, D i = (r : EReal)) ∧ (∀ i, ∃ r : ℝ, E i = (r : EReal)) ∧ (∀ i, ∃ r : ℝ, Wt i = (r : EReal))) :
    Cert.ReferenceIdeal.Read.val_main_v12 (F := Ideal) D E Wt = Cert.KernelIdeal.Arr.attnArr D E Wt := by
  funext i
  obtain ⟨B, z, s, rfl⟩ : ∃ (B : Fin 64) (z : Fin 1) (s : Fin 4096), i = ix3 B z s := ⟨i 0, i 1, i 2, eq_ix3 i⟩
  obtain rfl : z = 0 := Subsingleton.elim _ _
  rw [Cert.ReferenceIdeal.Rows.ref_attn]
  exact (Cert.Row.attn_eq _ _ _ (fun k => hfin.1 _) (fun s e => hfin.2.1 _) (fun e k => hfin.2.2 _) s).symm

/-- Under finiteness the kernel's weighted-sum array is the reference's last stage, index by index. -/
theorem sum_bridge (D : FVec Ideal Cert.KernelIdeal.S64x1x512 .f32) (E : FVec Ideal Cert.KernelIdeal.S64x4096x512 .f32)
    (Wt : FVec Ideal Cert.KernelIdeal.S512x512 .f32)
    (hfin : (∀ i, ∃ r : ℝ, D i = (r : EReal)) ∧ (∀ i, ∃ r : ℝ, E i = (r : EReal)) ∧ (∀ i, ∃ r : ℝ, Wt i = (r : EReal))) :
    Cert.ReferenceIdeal.Read.val_main_v14 (F := Ideal) D E Wt = Cert.KernelIdeal.Arr.sumArr D E Wt := by
  funext i
  obtain ⟨B, e, rfl⟩ : ∃ (B : Fin 64) (e : Fin 512), i = ix2 B e := ⟨i 0, i 1, eq_ix2 i⟩
  rw [Cert.ReferenceIdeal.Rows.ref_sum]
  exact (Cert.Row.sum_eq _ _ _ (fun k => hfin.1 _) (fun s e => hfin.2.1 _) (fun e k => hfin.2.2 _) e).symm

/-- Both idealized programs end with the same two results. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, _, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2, Cert.ReferenceIdeal.Read.val_main_v12_eq]
    exact attn_bridge _ _ _ (Cert.Finite.finite_of_pre _ _ _ (hpre c))
  · rw [(hagree c).1, (hagree c).2.1, (hagree c).2.2, Cert.ReferenceIdeal.Read.val_main_v14_eq]
    exact sum_bridge _ _ _ (Cert.Finite.finite_of_pre _ _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
